-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S1x3200000 : Shape := ⟨2, ![1, 3200000]⟩
abbrev S3200000 : Shape := ⟨1, ![3200000]⟩
abbrev S_ : Shape := ⟨0, ![]⟩

class Facts : Prop where
  slices_S2x3200000_S1x3200000_0_0 : S2x3200000.Slices ![0, 0] S1x3200000
  shapeCasts_S1x3200000_S3200000 : S1x3200000.ShapeCasts S3200000
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S3200000 : S_.BroadcastsInDim S3200000 (![] : Fin 0 → Fin S3200000.rank)
  reducesTo_S3200000_S_d0 : S3200000.ReducesTo [0] S_

variable [Facts]

def fn_part1 {F : FTy → Type} [FloatOps F] (main_arg5 : FVec F S32 .f32) (main_v1 : IVec S3200000 32) (main_v15 : IVec S_ 1) (main_v16 : FVec F S16x32 .f32) (main_cst_4 : FVec F S_ .f32) : IVec S_ 1 :=
  let main_v17 : FVec F S16x32 .f32 := broadcastInDim S16x32 ![] bcast_S_S16x32 main_cst_4
  let main_v18 : IVec S16x32 1 := cmpf .olt main_v16 main_v17
  let main_c_5 : IVec S_ 1 := constantI S_ 1 1#1
  let main_v19 : IVec S_ 1 := (fun x v => Host.reduce IntOp.andi x v reducesTo_S16x32_S_d0_1 h_S_) main_v18 main_c_5
  let main_v20 : IVec S_ 1 := andi main_v15 main_v19
  let main_v21 : FVec F S32 .f32 := Host.absf main_arg5
  let main_cst_6 : FVec F S_ .f32 := constant S_ .f32 0x7F800000#32
  let main_v22 : FVec F S32 .f32 := broadcastInDim S32 ![] bcast_S_S32 main_cst_6
  let main_v23 : IVec S32 1 := cmpf .olt main_v21 main_v22
  let main_c_7 : IVec S_ 1 := constantI S_ 1 1#1
  let main_v24 : IVec S_ 1 := (fun x v => Host.reduce IntOp.andi x v reducesTo_S32_S_d0 h_S_) main_v23 main_c_7
  let main_v25 : IVec S_ 1 := andi main_v20 main_v24
  let main_c_8 : IVec S_ 32 := constantI S_ 32 0#32
  let main_v26 : IVec S3200000 32 := broadcastInDim S3200000 ![] bcast_S_S3200000 main_c_8
  let main_v27 : IVec S3200000 1 := cmpi .sge main_v1 main_v26
  let main_c_9 : IVec S_ 32 := constantI S_ 32 100000#32
  let main_v28 : IVec S3200000 32 := broadcastInDim S3200000 ![] bcast_S_S3200000 main_c_9
  let main_v29 : IVec S3200000 1 := cmpi .slt main_v1 main_v28
  let main_v30 : IVec S3200000 1 := andi main_v27 main_v29
  let main_c_10 : IVec S_ 1 := constantI S_ 1 1#1
  let main_v31 : IVec S_ 1 := (fun x v => Host.reduce IntOp.andi x v reducesTo_S3200000_S_d0 h_S_) main_v30 main_c_10
  let main_v32 : IVec S_ 1 := andi main_v25 main_v31
  main_v32

def fn {F : FTy → Type} [FloatOps F] (main_arg0 : FVec F S100000x128 .f32) (main_arg1 : IVec S2x3200000 32) (main_arg2 : FVec F S128x16 .f32) (main_arg3 : FVec F S16 .f32) (main_arg4 : FVec F S16x32 .f32) (main_arg5 : FVec F S32 .f32) : IVec S_ 1 :=
  let main_v0 : IVec S1x3200000 32 := (extractStridedSlice S1x3200000 ![0, 0] · slices_S2x3200000_S1x3200000_0_0) main_arg1
  let main_v1 : IVec S3200000 32 := shapeCast S3200000 main_v0 shapeCasts_S1x3200000_S3200000
  let main_v2 : FVec F S100000x128 .f32 := Host.absf main_arg0
  let main_cst : FVec F S_ .f32 := constant S_ .f32 0x7F800000#32
  let main_v3 : FVec F S100000x128 .f32 := broadcastInDim S100000x128 ![] bcast_S_S100000x128 main_cst
  let main_v4 : IVec S100000x128 1 := cmpf .olt main_v2 main_v3
  let main_c : IVec S_ 1 := constantI S_ 1 1#1
  let main_v5 : IVec S_ 1 := (fun x v => Host.reduce IntOp.andi x v reducesTo_S100000x128_S_d0_1 h_S_) main_v4 main_c
  let main_v6 : FVec F S128x16 .f32 := Host.absf main_arg2
  let main_cst_0 : FVec F S_ .f32 := constant S_ .f32 0x7F800000#32
  let main_v7 : FVec F S128x16 .f32 := broadcastInDim S128x16 ![] bcast_S_S128x16 main_cst_0
  let main_v8 : IVec S128x16 1 := cmpf .olt main_v6 main_v7
  let main_c_1 : IVec S_ 1 := constantI S_ 1 1#1
  let main_v9 : IVec S_ 1 := (fun x v => Host.reduce IntOp.andi x v reducesTo_S128x16_S_d0_1 h_S_) main_v8 main_c_1
  let main_v10 : IVec S_ 1 := andi main_v5 main_v9
  let main_v11 : FVec F S16 .f32 := Host.absf main_arg3
  let main_cst_2 : FVec F S_ .f32 := constant S_ .f32 0x7F800000#32
  let main_v12 : FVec F S16 .f32 := broadcastInDim S16 ![] bcast_S_S16 main_cst_2
  let main_v13 : IVec S16 1 := cmpf .olt main_v11 main_v12
  let main_c_3 : IVec S_ 1 := constantI S_ 1 1#1
  let main_v14 : IVec S_ 1 := (fun x v => Host.reduce IntOp.andi x v reducesTo_S16_S_d0 h_S_) main_v13 main_c_3
  let main_v15 : IVec S_ 1 := andi main_v10 main_v14
  let main_v16 : FVec F S16x32 .f32 := Host.absf main_arg4
  let main_cst_4 : FVec F S_ .f32 := constant S_ .f32 0x7F800000#32
  fn_part1 (F := F) main_arg5 main_v1 main_v15 main_v16 main_cst_4
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x128 : Shape := ⟨2, ![2000, 128]⟩
abbrev S2000x16 : Shape := ⟨2, ![2000, 16]⟩
abbrev S1 : Shape := ⟨1, ![1]⟩
abbrev S1x1 : Shape := ⟨2, ![1, 1]⟩
abbrev S3300000x16 : Shape := ⟨2, ![3300000, 16]⟩
abbrev S4000x16 : Shape := ⟨2, ![4000, 16]⟩
abbrev S4000x1 : Shape := ⟨2, ![4000, 1]⟩
abbrev S1x16 : Shape := ⟨2, ![1, 16]⟩
abbrev S100000x32 : Shape := ⟨2, ![100000, 32]⟩
abbrev S2000x32 : Shape := ⟨2, ![2000, 32]⟩
abbrev S3300000x32 : Shape := ⟨2, ![3300000, 32]⟩
abbrev S4000x32 : Shape := ⟨2, ![4000, 32]⟩
abbrev S1x32 : Shape := ⟨2, ![1, 32]⟩

abbrev nBuf : Space → Nat
  | .hbm => 112
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x16, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S1, .i32⟩
  | .hbm, ⟨58, _⟩ => ⟨S_, .i32⟩
  | .hbm, ⟨59, _⟩ => ⟨S3300000x1, .i32⟩
  | .hbm, ⟨60, _⟩ => ⟨S3300000x1, .i1⟩
  | .hbm, ⟨61, _⟩ => ⟨S1x1, .i32⟩
  | .hbm, ⟨62, _⟩ => ⟨S3300000x1, .i32⟩
  | .hbm, ⟨63, _⟩ => ⟨S3300000x1, .i1⟩
  | .hbm, ⟨64, _⟩ => ⟨S3300000x1, .i1⟩
  | .hbm, ⟨65, _⟩ => ⟨S_, .i1⟩
  | .hbm, ⟨66, _⟩ => ⟨S3300000, .i1⟩
  | .hbm, ⟨67, _⟩ => ⟨S3300000x16, .f32⟩
  | .hbm, ⟨68, _⟩ => ⟨S3300000x16, .i1⟩
  | .hbm, ⟨69, _⟩ => ⟨S_, .f32⟩
  | .hbm, ⟨70, _⟩ => ⟨S3300000x16, .f32⟩
  | .hbm, ⟨71, _⟩ => ⟨S3300000x16, .f32⟩
  | .hbm, ⟨72, _⟩ => ⟨S3300000x1, .f32⟩
  | .hbm, ⟨73, _⟩ => ⟨S3300000x16, .f32⟩
  | .hbm, ⟨74, _⟩ => ⟨S_, .f32⟩
  | .hbm, ⟨75, _⟩ => ⟨S100000x16, .f32⟩
  | .hbm, ⟨76, _⟩ => ⟨S3300000x1, .i32⟩
  | .hbm, ⟨77, _⟩ => ⟨S100000x16, .f32⟩
  | .hbm, ⟨78, _⟩ => ⟨S1x16, .f32⟩
  | .hbm, ⟨79, _⟩ => ⟨S100000x16, .f32⟩
  | .hbm, ⟨80, _⟩ => ⟨S100000x32, .f32⟩
  | .hbm, ⟨81, _⟩ => ⟨S_, .i32⟩
  | .hbm, ⟨82, _⟩ => ⟨S3300000, .i32⟩
  | .hbm, ⟨83, _⟩ => ⟨S3300000, .i1⟩
  | .hbm, ⟨84, _⟩ => ⟨S_, .i32⟩
  | .hbm, ⟨85, _⟩ => ⟨S3300000, .i32⟩
  | .hbm, ⟨86, _⟩ => ⟨S3300000, .i32⟩
  | .hbm, ⟨87, _⟩ => ⟨S3300000, .i32⟩
  | .hbm, ⟨88, _⟩ => ⟨S3300000x1, .i32⟩
  | .hbm, ⟨89, _⟩ => ⟨S1, .i32⟩
  | .hbm, ⟨90, _⟩ => ⟨S_, .i32⟩
  | .hbm, ⟨91, _⟩ => ⟨S3300000x1, .i32⟩
  | .hbm, ⟨92, _⟩ => ⟨S3300000x1, .i1⟩
  | .hbm, ⟨93, _⟩ => ⟨S1x1, .i32⟩
  | .hbm, ⟨94, _⟩ => ⟨S3300000x1, .i32⟩
  | .hbm, ⟨95, _⟩ => ⟨S3300000x1, .i1⟩
  | .hbm, ⟨96, _⟩ => ⟨S3300000x1, .i1⟩
  | .hbm, ⟨97, _⟩ => ⟨S_, .i1⟩
  | .hbm, ⟨98, _⟩ => ⟨S3300000, .i1⟩
  | .hbm, ⟨99, _⟩ => ⟨S3300000x32, .f32⟩
  | .hbm, ⟨100, _⟩ => ⟨S3300000x32, .i1⟩
  | .hbm, ⟨101, _⟩ => ⟨S_, .f32⟩
  | .hbm, ⟨102, _⟩ => ⟨S3300000x32, .f32⟩
  | .hbm, ⟨103, _⟩ => ⟨S3300000x32, .f32⟩
  | .hbm, ⟨104, _⟩ => ⟨S3300000x1, .f32⟩
  | .hbm, ⟨105, _⟩ => ⟨S3300000x32, .f32⟩
  | .hbm, ⟨106, _⟩ => ⟨S_, .f32⟩
  | .hbm, ⟨107, _⟩ => ⟨S100000x32, .f32⟩
  | .hbm, ⟨108, _⟩ => ⟨S3300000x1, .i32⟩
  | .hbm, ⟨109, _⟩ => ⟨S100000x32, .f32⟩
  | .hbm, ⟨110, _⟩ => ⟨S1x32, .f32⟩
  | .hbm, ⟨111, _⟩ => ⟨S100000x32, .f32⟩
  | .local _ .vmem, ⟨0, _⟩ => ⟨S2000x128, .f32⟩
  | .local _ .vmem, ⟨1, _⟩ => ⟨S2000x128, .f32⟩
  | .local _ .vmem, ⟨2, _⟩ => ⟨S128x16, .f32⟩
  | .local _ .vmem, ⟨3, _⟩ => ⟨S2000x16, .f32⟩
  | .local _ .vmem, ⟨4, _⟩ => ⟨S2000x16, .f32⟩
  | .local _ .vmem, ⟨5, _⟩ => ⟨S4000x16, .f32⟩
  | .local _ .vmem, ⟨6, _⟩ => ⟨S4000x16, .f32⟩
  | .local _ .vmem, ⟨7, _⟩ => ⟨S4000x1, .f32⟩
  | .local _ .vmem, ⟨8, _⟩ => ⟨S4000x1, .f32⟩
  | .local _ .vmem, ⟨9, _⟩ => ⟨S4000x16, .f32⟩
  | .local _ .vmem, ⟨10, _⟩ => ⟨S4000x16, .f32⟩
  | .local _ .vmem, ⟨11, _⟩ => ⟨S2000x16, .f32⟩
  | .local _ .vmem, ⟨12, _⟩ => ⟨S2000x16, .f32⟩
  | .local _ .vmem, ⟨13, _⟩ => ⟨S1x16, .f32⟩
  | .local _ .vmem, ⟨14, _⟩ => ⟨S2000x16, .f32⟩
  | .local _ .vmem, ⟨15, _⟩ => ⟨S2000x16, .f32⟩
  | .local _ .vmem, ⟨16, _⟩ => ⟨S2000x16, .f32⟩
  | .local _ .vmem, ⟨17, _⟩ => ⟨S2000x16, .f32⟩
  | .local _ .vmem, ⟨18, _⟩ => ⟨S16x32, .f32⟩
  | .local _ .vmem, ⟨19, _⟩ => ⟨S2000x32, .f32⟩
  | .local _ .vmem, ⟨20, _⟩ => ⟨S2000x32, .f32⟩
  | .local _ .vmem, ⟨21, _⟩ => ⟨S4000x32, .f32⟩
  | .local _ .vmem, ⟨22, _⟩ => ⟨S4000x32, .f32⟩
  | .local _ .vmem, ⟨23, _⟩ => ⟨S4000x1, .f32⟩
  | .local _ .vmem, ⟨24, _⟩ => ⟨S4000x1, .f32⟩
  | .local _ .vmem, ⟨25, _⟩ => ⟨S4000x32, .f32⟩
  | .local _ .vmem, ⟨26, _⟩ => ⟨S4000x32, .f32⟩
  | .local _ .vmem, ⟨27, _⟩ => ⟨S2000x32, .f32⟩
  | .local _ .vmem, ⟨28, _⟩ => ⟨S2000x32, .f32⟩
  | .local _ .vmem, ⟨29, _⟩ => ⟨S1x32, .f32⟩
  | .local _ .vmem, ⟨30, _⟩ => ⟨S2000x32, .f32⟩
  | .local _ .vmem, ⟨31, _⟩ => ⟨S2000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_cst_7 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_call2_c : Ref sig .tc := ⟨.hbm, 81, rfl⟩
abbrev main_call2_v0 : Ref sig .tc := ⟨.hbm, 82, rfl⟩
abbrev main_call2_v1 : Ref sig .tc := ⟨.hbm, 83, rfl⟩
abbrev main_call2_c_0 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_c_1 : Ref sig .tc := ⟨.hbm, 89, rfl⟩
abbrev main_call2_c_2 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_c_3 : Ref sig .tc := ⟨.hbm, 97, rfl⟩
abbrev main_call2_v12 : Ref sig .tc := ⟨.hbm, 98, rfl⟩
abbrev main_call2_v13 : Ref sig .tc := ⟨.hbm, 99, rfl⟩
abbrev main_call2_v14 : Ref sig .tc := ⟨.hbm, 100, rfl⟩
abbrev main_call2_cst : Ref sig .tc := ⟨.hbm, 101, rfl⟩
abbrev main_call2_v15 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_cst_8 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![825], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![825], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S2000x16_S2000x16_0_0 : ∀ a, (![0, 0] : Fin 2 → Nat) a + S2000x16.size a ≤ S2000x16.size a
  h_S2000x16 : 0 < S2000x16.numel
  bcast_S_S3300000x1 : S_.BroadcastsInDim S3300000x1 (![] : Fin 0 → Fin S3300000x1.rank)
  bcast_S1_S1x1_1 : S1.BroadcastsInDim S1x1 (![1] : Fin 1 → Fin S1x1.rank)
  bcast_S1x1_S3300000x1_0_1 : S1x1.BroadcastsInDim S3300000x1 (![0, 1] : Fin 2 → Fin S3300000x1.rank)
  reducesTo_S3300000x1_S3300000_d1 : S3300000x1.ReducesTo [1] S3300000
  h_S_ : 0 < S_.numel
  bcast_S3300000_S3300000x16_0 : S3300000.BroadcastsInDim S3300000x16 (![0] : Fin 1 → Fin S3300000x16.rank)
  bcast_S_S3300000x16 : S_.BroadcastsInDim S3300000x16 (![] : Fin 0 → Fin S3300000x16.rank)
  shapeCasts_S3300000_S3300000x1 : S3300000.ShapeCasts S3300000x1
  inb_S4000x16_S4000x16_0_0 : ∀ a, (![0, 0] : Fin 2 → Nat) a + S4000x16.size a ≤ S4000x16.size a
  h_S4000x16 : 0 < S4000x16.numel
  shapeCasts_S4000x16_S4000x16 : S4000x16.ShapeCasts S4000x16
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x16 : S4000x1.Broadcasts S4000x16
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x32_S16x32_0_0 : ∀ a, (![0, 0] : Fin 2 → Nat) a + S16x32.size a ≤ S16x32.size a
  h_S16x32 : 0 < S16x32.numel
  inb_S2000x32_S2000x32_0_0 : ∀ a, (![0, 0] : Fin 2 → Nat) a + S2000x32.size a ≤ S2000x32.size a
  h_S2000x32 : 0 < S2000x32.numel
  bcast_S3300000_S3300000x32_0 : S3300000.BroadcastsInDim S3300000x32 (![0] : Fin 1 → Fin S3300000x32.rank)
  bcast_S_S3300000x32 : S_.BroadcastsInDim S3300000x32 (![] : Fin 0 → Fin S3300000x32.rank)
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  broadcasts_S4000x1_S4000x32 : S4000x1.Broadcasts S4000x32
  bcast_S_S100000x32 : S_.BroadcastsInDim S100000x32 (![] : Fin 0 → Fin S100000x32.rank)
  shapeCasts_S32_S1x32 : S32.ShapeCasts S1x32
  shapeCasts_S2000x32_S2000x32 : S2000x32.ShapeCasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x128_S128x16_S2000x16_1_0_0_1_n_n_wf : DotDims.WF S2000x128 S128x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x32_S2000x32_1_0_0_1_n_n_wf : DotDims.WF S2000x16 S16x32 S2000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S3300000x16.size a
  hwx1_0 : ∀ i : grid1.Coords, EltTy.bits .f32 = 32 ∨ (Rect.block (s := S3300000x16) S4000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S3300000x1.size a
  hwx1_1 : ∀ i : grid1.Coords, EltTy.bits .f32 = 32 ∨ (Rect.block (s := S3300000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x16.size a ≤ S3300000x16.size a
  hwx1_2 : ∀ i : grid1.Coords, EltTy.bits .f32 = 32 ∨ (Rect.block (s := S3300000x16) S4000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x16.size a ≤ S100000x16.size a
  hwx2_2 : ∀ i : grid2.Coords, EltTy.bits .f32 = 32 ∨ (Rect.block (s := S100000x16) S2000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x16.size a ≤ S100000x16.size a
  hwx3_0 : ∀ i : grid3.Coords, EltTy.bits .f32 = 32 ∨ (Rect.block (s := S100000x16) S2000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x32.size a ≤ S16x32.size a
  hwx3_1 : ∀ i : grid3.Coords, EltTy.bits .f32 = 32 ∨ (Rect.block (s := S16x32) S16x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x32.size a ≤ S100000x32.size a
  hwx3_2 : ∀ i : grid3.Coords, EltTy.bits .f32 = 32 ∨ (Rect.block (s := S100000x32) S2000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x32.size a ≤ S3300000x32.size a
  hwx4_0 : ∀ i : grid4.Coords, EltTy.bits .f32 = 32 ∨ (Rect.block (s := S3300000x32) S4000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x1.size a ≤ S3300000x1.size a
  hwx4_1 : ∀ i : grid4.Coords, EltTy.bits .f32 = 32 ∨ (Rect.block (s := S3300000x1) S4000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x32.size a ≤ S3300000x32.size a
  hwx4_2 : ∀ i : grid4.Coords, EltTy.bits .f32 = 32 ∨ (Rect.block (s := S3300000x32) S4000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x32.size a ≤ S100000x32.size a
  hwx5_0 : ∀ i : grid5.Coords, EltTy.bits .f32 = 32 ∨ (Rect.block (s := S100000x32) S2000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x32.size a ≤ S100000x32.size a
  hwx5_2 : ∀ i : grid5.Coords, EltTy.bits .f32 = 32 ∨ (Rect.block (s := S100000x32) S2000x32.size (cc5_transform_2 i) (hinb5_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x32_S2000x32_1_0_0_1_n_n : DotDims S2000x16 S16x32 S2000x32 where
  lhsContracting := [1]
  rhsContracting := [0]
  lhsNonContracting := [0]
  rhsNonContracting := [1]
  lhsBatch := []
  rhsBatch := []
  wf := dot_S2000x16_S16x32_S2000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v32) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S4000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v37) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S2000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v39) S2000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S16x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v40) S2000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v41) S4000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v42) S4000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v43) S4000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v46) S2000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v47) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v48) S2000x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x32 : Shape := ⟨2, ![100000, 32]⟩
abbrev S3300000x32 : Shape := ⟨2, ![3300000, 32]⟩
abbrev S1x32 : Shape := ⟨2, ![1, 32]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x16, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x16, .f32⟩
  | .hbm, ⟨58, _⟩ => ⟨S3300000x1, .f32⟩
  | .hbm, ⟨59, _⟩ => ⟨S3300000x16, .f32⟩
  | .hbm, ⟨60, _⟩ => ⟨S3300000x16, .f32⟩
  | .hbm, ⟨61, _⟩ => ⟨S_, .f32⟩
  | .hbm, ⟨62, _⟩ => ⟨S100000x16, .f32⟩
  | .hbm, ⟨63, _⟩ => ⟨S3300000x1, .i32⟩
  | .hbm, ⟨64, _⟩ => ⟨S100000x16, .f32⟩
  | .hbm, ⟨65, _⟩ => ⟨S1x16, .f32⟩
  | .hbm, ⟨66, _⟩ => ⟨S100000x16, .f32⟩
  | .hbm, ⟨67, _⟩ => ⟨S100000x16, .f32⟩
  | .hbm, ⟨68, _⟩ => ⟨S_, .f32⟩
  | .hbm, ⟨69, _⟩ => ⟨S100000x16, .f32⟩
  | .hbm, ⟨70, _⟩ => ⟨S100000x16, .f32⟩
  | .hbm, ⟨71, _⟩ => ⟨S100000x32, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x32, .f32⟩
  | .hbm, ⟨81, _⟩ => ⟨S3300000x1, .f32⟩
  | .hbm, ⟨82, _⟩ => ⟨S3300000x32, .f32⟩
  | .hbm, ⟨83, _⟩ => ⟨S3300000x32, .f32⟩
  | .hbm, ⟨84, _⟩ => ⟨S_, .f32⟩
  | .hbm, ⟨85, _⟩ => ⟨S100000x32, .f32⟩
  | .hbm, ⟨86, _⟩ => ⟨S3300000x1, .i32⟩
  | .hbm, ⟨87, _⟩ => ⟨S100000x32, .f32⟩
  | .hbm, ⟨88, _⟩ => ⟨S1x32, .f32⟩
  | .hbm, ⟨89, _⟩ => ⟨S100000x32, .f32⟩
  | .hbm, ⟨90, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x16_S100000x16_1_0_0_1_n_n_wf : DotDims.WF S100000x128 S128x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x32_S100000x32_1_0_0_1_n_n_wf : DotDims.WF S100000x16 S16x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf

class Facts : Prop extends Facts₀ where

variable [Facts]
-- ==== Proof.Walk.lean ====
/-
  The kernel program's host side, one stretch at a time.
  @main is fifteen segments: host stretches (the graph preprocessing, the two row gathers, the two scatter-adds,
  three reshapes) and six regions. This module names the values the host stretches compute — the source and
  destination lists with the self loops appended, the degree-normalising edge weights, the row gather of the
  "fill" mode (rows at the wrapped indices where those lie in range, a NaN word elsewhere), the scatter-add over the
  destinations — and reads each stretch, from ANY buffer contents `X` it starts from, as those functions of the
  buffers it reads. A stretch changes only the buffers its operations write (`host_keep`). The two gather stretches are the
  same text at widths 16 and 32: the first is read here (section FirstGather), the second in a module laid out from it.
-/
import proofs.«424739_j22832046145825_2_alg».proof.Proof.Gen.KernelIdeal.Frame
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

variable {F : FTy → Type} [FloatOps F]

/-! ## The graph side, as functions of the edge list -/

section Graph
variable (a1 : IVec S2x3200000 32)

/-- The source list: row 0 of the edge list followed by the self loops 0, 1, …, 99999. -/
def src : IVec S3300000 32 := concatenate S3300000 0 [⟨S3200000, shapeCast S3200000 (extractStridedSlice S1x3200000 ![0, 0] a1 slices_S2x3200000_S1x3200000_0_0) shapeCasts_S1x3200000_S3200000⟩, ⟨S100000, iotaInDim S100000 32 0⟩] concatenates_S3200000_S100000_S3300000_d0
/-- The destination list: row 1 of the edge list followed by the self loops. -/
def dst : IVec S3300000 32 := concatenate S3300000 0 [⟨S3200000, shapeCast S3200000 (extractStridedSlice S1x3200000 ![1, 0] a1 slices_S2x3200000_S1x3200000_1_0) shapeCasts_S1x3200000_S3200000⟩, ⟨S100000, iotaInDim S100000 32 0⟩] concatenates_S3200000_S100000_S3300000_d0
/-- The in-degree of every node, self loop included: ones scatter-added over the destinations. -/
def deg : FVec F S100000 .f32 := Host.scatterAdd scatter_S100000_S3300000x1_S3300000_n_0_0_1 (broadcastInDim S100000 ![] bcast_S_S100000 (constant S_ .f32 0x00000000#32)) (broadcastInDim S3300000x1 ![0] bcast_S3300000_S3300000x1_0 (dst a1)) (broadcastInDim S3300000 ![] bcast_S_S3300000 (constant S_ .f32 0x3F800000#32))
/-- Whether the degree is positive. -/
def degPos : IVec S100000 1 := cmpf .ogt (deg (F := F) a1) (broadcastInDim S100000 ![] bcast_S_S100000 (constant S_ .f32 0x00000000#32))
/-- The degree to the power -1/2. -/
def degPow : FVec F S100000 .f32 := Host.powf (deg a1) (broadcastInDim S100000 ![] bcast_S_S100000 (constant S_ .f32 0xBF000000#32))
/-- deg^(-1/2) where the degree is positive, 0 elsewhere. -/
def dinv : FVec F S100000 .f32 := select (degPos (F := F) a1) (degPow a1) (broadcastInDim S100000 ![] bcast_S_S100000 (id (constant S_ .f32 0x00000000#32)))
end Graph

/-- An index list with its negative entries wrapped by adding 100000, as an [E, 1] column of start indices. -/
def wrap (s : IVec S3300000 32) : IVec S3300000x1 32 := broadcastInDim S3300000x1 ![0] bcast_S3300000_S3300000x1_0 (select (cmpi .slt s (broadcastInDim S3300000 ![] bcast_S_S3300000 (constantI S_ 32 0#32))) (addi s (broadcastInDim S3300000 ![] bcast_S_S3300000 (constantI S_ 32 100000#32))) s)

/-- The edge weights from node weights `d`: d[src] · d[dst]. -/
def normOf (d : FVec F S100000 .f32) (s t : IVec S3300000 32) : FVec F S3300000 .f32 := mulf (Host.gather gather_S100000_S3300000x1_S3300000_n_0_n_n_0_1_1 d (wrap s)) (Host.gather gather_S100000_S3300000x1_S3300000_n_0_n_n_0_1_1 d (wrap t))

/-- The edge weights of the edge list. -/
def norm (a1 : IVec S2x3200000 32) : FVec F S3300000 .f32 := normOf (dinv a1) (src a1) (dst a1)

/-- Whether a wrapped index lies in [0, 99999], per edge. -/
def inRange (w : IVec S3300000x1 32) : IVec S3300000 1 := Host.reduce IntOp.andi (andi (cmpi .sge w (broadcastInDim S3300000x1 ![] bcast_S_S3300000x1 (constantI S_ 32 0#32))) (cmpi .sle w (broadcastInDim S3300000x1 ![0, 1] bcast_S1x1_S3300000x1_0_1 (broadcastInDim S1x1 ![1] bcast_S1_S1x1_1 (constantI S1 32 99999#32))))) (constantI S_ 1 1#1) reducesTo_S3300000x1_S3300000_d1 h_S_

/-- The fill-mode row gather at width 16: rows of `h` at the wrapped indices where those lie in range, the NaN word elsewhere. -/
def take16 (h : FVec F S100000x16 .f32) (s : IVec S3300000 32) : FVec F S3300000x16 .f32 := select (broadcastInDim S3300000x16 ![0] bcast_S3300000_S3300000x16_0 (inRange (wrap s))) (Host.gather gather_S100000x16_S3300000x1_S3300000x16_1_0_n_n_0_1_116 h (wrap s)) (broadcastInDim S3300000x16 ![] bcast_S_S3300000x16 (constant S_ .f32 0x7FC00000#32))
/-- The same at width 32. -/
def take32 (h : FVec F S100000x32 .f32) (s : IVec S3300000 32) : FVec F S3300000x32 .f32 := select (broadcastInDim S3300000x32 ![0] bcast_S3300000_S3300000x32_0 (inRange (wrap s))) (Host.gather gather_S100000x32_S3300000x1_S3300000x32_1_0_n_n_0_1_132 h (wrap s)) (broadcastInDim S3300000x32 ![] bcast_S_S3300000x32 (constant S_ .f32 0x7FC00000#32))

/-- Messages scatter-added over the destinations into zeros, width 16. -/
def scat16 (t : IVec S3300000 32) (u : FVec F S3300000x16 .f32) : FVec F S100000x16 .f32 := Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 t) u
/-- The same at width 32. -/
def scat32 (t : IVec S3300000 32) (u : FVec F S3300000x32 .f32) : FVec F S100000x32 .f32 := Host.scatterAdd scatter_S100000x32_S3300000x1_S3300000x32_1_0_0_1 (broadcastInDim S100000x32 ![] bcast_S_S100000x32 (constant S_ .f32 0x00000000#32)) (broadcastInDim S3300000x1 ![0] bcast_S3300000_S3300000x1_0 t) u

/-! ## One host stretch at a time, from any contents `X` -/

/-- A buffer no operation of the stretch writes keeps its contents across it. -/
macro "host_keep" ops:ident : tactic => `(tactic| exact StableHlo.after_of_forall_not_mem _ _ (List.forall_iff_forall_mem.mp (by
  simp only [$ops:ident, hostOps1, hostOps4, List.take_succ_cons, List.take_zero, List.drop_succ_cons, List.drop_zero,
    List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide))))

section Stretches
variable (X : Valuation τ sig (Elt F))

theorem s0_v3 : after hostOps0 X (Proc.devRef .tc main_v3) = src (X (Proc.devRef .tc main_arg1)) := by
  after_results; rfl
theorem s0_v6 : after hostOps0 X (Proc.devRef .tc main_v6) = dst (X (Proc.devRef .tc main_arg1)) := by
  after_results; rfl
theorem s0_v12 : after hostOps0 X (Proc.devRef .tc main_v12) = degPos (F := F) (X (Proc.devRef .tc main_arg1)) := by
  after_results; rfl
theorem s0_v14 : after hostOps0 X (Proc.devRef .tc main_v14) = degPow (F := F) (X (Proc.devRef .tc main_arg1)) := by
  after_results; rfl
theorem s0_cst3 : after hostOps0 X (Proc.devRef .tc main_cst_3) = constant (F := F) S_ .f32 0x00000000#32 := by
  after_results
theorem s01_v15 : after hostOps0_1 X (Proc.devRef .tc main_v15)
    = select (X (Proc.devRef .tc main_v12)) (X (Proc.devRef .tc main_v14)) (broadcastInDim S100000 ![] bcast_S_S100000 (id (X (Proc.devRef .tc main_cst_3)))) := by
  after_results; rfl
set_option maxHeartbeats 2000000 in
theorem s02_v30 : after hostOps0_2 X (Proc.devRef .tc main_v30)
    = normOf (X (Proc.devRef .tc main_v15)) (X (Proc.devRef .tc main_v3)) (X (Proc.devRef .tc main_v6)) := by
  after_results; rfl

section FirstGather
/-- The first gather's operations in three runs: the wrapped index column; the range mask; the masked gather. -/
abbrev take1A : List (HloOp τ sig (Elt F)) := hostOps1.take 8
abbrev take1B : List (HloOp τ sig (Elt F)) := (hostOps1.drop 8).take 10
abbrev take1C : List (HloOp τ sig (Elt F)) := hostOps1.drop 18

theorem hostOps1_split : (hostOps1 : List (HloOp τ sig (Elt F))) = take1A ++ (take1B ++ take1C) := rfl

theorem take1_chunks : after hostOps1 X = after take1C (after take1B (after take1A X)) := by
  rw [hostOps1_split, StableHlo.after_append, StableHlo.after_append]

theorem take1A_v5 : after take1A X (Proc.devRef .tc main_call1_v5) = wrap (X (Proc.devRef .tc main_v3)) := by
  simp only [take1A, hostOps1, List.take_succ_cons, List.take_zero]
  after_results; rfl
theorem take1A_keep : after take1A X (Proc.devRef .tc main_v31) = X (Proc.devRef .tc main_v31) := by
  host_keep take1A
theorem take1B_v12 : after take1B X (Proc.devRef .tc main_call1_v12) = inRange (X (Proc.devRef .tc main_call1_v5)) := by
  simp only [take1B, hostOps1, List.drop_succ_cons, List.drop_zero, List.take_succ_cons, List.take_zero]
  after_results
  simp only [TRef.ofBuf, TRef.toBuf, cast_eq]
  rfl
theorem take1B_keep_v5 : after take1B X (Proc.devRef .tc main_call1_v5) = X (Proc.devRef .tc main_call1_v5) := by
  host_keep take1B
theorem take1B_keep : after take1B X (Proc.devRef .tc main_v31) = X (Proc.devRef .tc main_v31) := by
  host_keep take1B
theorem take1C_out : after take1C X (Proc.devRef .tc main_v32)
    = select (broadcastInDim S3300000x16 ![0] bcast_S3300000_S3300000x16_0 (X (Proc.devRef .tc main_call1_v12))) (Host.gather gather_S100000x16_S3300000x1_S3300000x16_1_0_n_n_0_1_116 (X (Proc.devRef .tc main_v31)) (X (Proc.devRef .tc main_call1_v5))) (broadcastInDim S3300000x16 ![] bcast_S_S3300000x16 (constant S_ .f32 0x7FC00000#32)) := by
  simp only [take1C, hostOps1, List.drop_succ_cons, List.drop_zero]
  after_results; rfl

/-- The first gather stretch: the rows of the dense layer's output at the wrapped source indices, masked by the range test. -/
theorem s1_v32 : after hostOps1 X (Proc.devRef .tc main_v32) = take16 (X (Proc.devRef .tc main_v31)) (X (Proc.devRef .tc main_v3)) := by
  rw [take1_chunks]
  refine (take1C_out _).trans ?_
  rw [take1B_v12, take1B_keep_v5, take1B_keep, take1A_v5, take1A_keep]
  rfl

end FirstGather

theorem s11_v33 : after hostOps1_1 X (Proc.devRef .tc main_v33) = shapeCast S3300000x1 (X (Proc.devRef .tc main_v30)) shapeCasts_S3300000_S3300000x1 := by
  after_results; rfl
theorem s2_v37 : after hostOps2 X (Proc.devRef .tc main_v37) = scat16 (X (Proc.devRef .tc main_v6)) (X (Proc.devRef .tc main_v34)) := by
  after_results; rfl
theorem s2_v38 : after hostOps2 X (Proc.devRef .tc main_v38) = shapeCast S1x16 (X (Proc.devRef .tc main_arg3)) shapeCasts_S16_S1x16 := by
  after_results; rfl

theorem s41_v42 : after hostOps4_1 X (Proc.devRef .tc main_v42) = shapeCast S3300000x1 (X (Proc.devRef .tc main_v30)) shapeCasts_S3300000_S3300000x1 := by
  after_results; rfl
theorem s5_v46 : after hostOps5 X (Proc.devRef .tc main_v46) = scat32 (X (Proc.devRef .tc main_v6)) (X (Proc.devRef .tc main_v43)) := by
  after_results; rfl
theorem s5_v47 : after hostOps5 X (Proc.devRef .tc main_v47) = shapeCast S1x32 (X (Proc.devRef .tc main_arg5)) shapeCasts_S32_S1x32 := by
  after_results; rfl

end Stretches

end Cert.KernelIdeal.Walk

end
-- ==== Proof.WalkCarry.lean ====
/- A table: for each listed buffer and pair of boundaries of @main, the buffer holds at the later boundary what it held at the
   earlier one, since no segment in between writes it (a region: the generated frame's W<k>_of_ne; a host stretch: no
   operation of the stretch writes the buffer). The rows are in the script; nothing here is an argument of its own. -/
import proofs.«424739_j22832046145825_2_alg».proof.Proof.Walk

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The buffer main_arg0 holds at boundary 3 what it held at boundary 0. -/
theorem carry_arg0_3_0 (c : Dev nD) : W3 m ρ c (Proc.devRef .tc main_arg0) = W0 m ρ c (Proc.devRef .tc main_arg0) :=
  calc W3 m ρ c (Proc.devRef .tc main_arg0)
    _ = W2 m ρ c (Proc.devRef .tc main_arg0) := by host_keep hostOps0_2
    _ = W1 m ρ c (Proc.devRef .tc main_arg0) := by host_keep hostOps0_1
    _ = W0 m ρ c (Proc.devRef .tc main_arg0) := by host_keep hostOps0

/-- The buffer main_arg2 holds at boundary 3 what it held at boundary 0. -/
theorem carry_arg2_3_0 (c : Dev nD) : W3 m ρ c (Proc.devRef .tc main_arg2) = W0 m ρ c (Proc.devRef .tc main_arg2) :=
  calc W3 m ρ c (Proc.devRef .tc main_arg2)
    _ = W2 m ρ c (Proc.devRef .tc main_arg2) := by host_keep hostOps0_2
    _ = W1 m ρ c (Proc.devRef .tc main_arg2) := by host_keep hostOps0_1
    _ = W0 m ρ c (Proc.devRef .tc main_arg2) := by host_keep hostOps0

/-- The buffer main_arg3 holds at boundary 7 what it held at boundary 0. -/
theorem carry_arg3_7_0 (c : Dev nD) : W7 m ρ c (Proc.devRef .tc main_arg3) = W0 m ρ c (Proc.devRef .tc main_arg3) :=
  calc W7 m ρ c (Proc.devRef .tc main_arg3)
    _ = W6 m ρ c (Proc.devRef .tc main_arg3) := W7_of_ne m ρ c main_arg3 (by decide)
    _ = W5 m ρ c (Proc.devRef .tc main_arg3) := by host_keep hostOps1_1
    _ = W4 m ρ c (Proc.devRef .tc main_arg3) := by host_keep hostOps1
    _ = W3 m ρ c (Proc.devRef .tc main_arg3) := W4_of_ne m ρ c main_arg3 (by decide)
    _ = W2 m ρ c (Proc.devRef .tc main_arg3) := by host_keep hostOps0_2
    _ = W1 m ρ c (Proc.devRef .tc main_arg3) := by host_keep hostOps0_1
    _ = W0 m ρ c (Proc.devRef .tc main_arg3) := by host_keep hostOps0

/-- The buffer main_arg4 holds at boundary 9 what it held at boundary 0. -/
theorem carry_arg4_9_0 (c : Dev nD) : W9 m ρ c (Proc.devRef .tc main_arg4) = W0 m ρ c (Proc.devRef .tc main_arg4) :=
  calc W9 m ρ c (Proc.devRef .tc main_arg4)
    _ = W8 m ρ c (Proc.devRef .tc main_arg4) := W9_of_ne m ρ c main_arg4 (by decide)
    _ = W7 m ρ c (Proc.devRef .tc main_arg4) := by host_keep hostOps2
    _ = W6 m ρ c (Proc.devRef .tc main_arg4) := W7_of_ne m ρ c main_arg4 (by decide)
    _ = W5 m ρ c (Proc.devRef .tc main_arg4) := by host_keep hostOps1_1
    _ = W4 m ρ c (Proc.devRef .tc main_arg4) := by host_keep hostOps1
    _ = W3 m ρ c (Proc.devRef .tc main_arg4) := W4_of_ne m ρ c main_arg4 (by decide)
    _ = W2 m ρ c (Proc.devRef .tc main_arg4) := by host_keep hostOps0_2
    _ = W1 m ρ c (Proc.devRef .tc main_arg4) := by host_keep hostOps0_1
    _ = W0 m ρ c (Proc.devRef .tc main_arg4) := by host_keep hostOps0

/-- The buffer main_arg5 holds at boundary 13 what it held at boundary 0. -/
theorem carry_arg5_13_0 (c : Dev nD) : W13 m ρ c (Proc.devRef .tc main_arg5) = W0 m ρ c (Proc.devRef .tc main_arg5) :=
  calc W13 m ρ c (Proc.devRef .tc main_arg5)
    _ = W12 m ρ c (Proc.devRef .tc main_arg5) := W13_of_ne m ρ c main_arg5 (by decide)
    _ = W11 m ρ c (Proc.devRef .tc main_arg5) := by host_keep hostOps4_1
    _ = W10 m ρ c (Proc.devRef .tc main_arg5) := by host_keep hostOps4
    _ = W9 m ρ c (Proc.devRef .tc main_arg5) := W10_of_ne m ρ c main_arg5 (by decide)
    _ = W8 m ρ c (Proc.devRef .tc main_arg5) := W9_of_ne m ρ c main_arg5 (by decide)
    _ = W7 m ρ c (Proc.devRef .tc main_arg5) := by host_keep hostOps2
    _ = W6 m ρ c (Proc.devRef .tc main_arg5) := W7_of_ne m ρ c main_arg5 (by decide)
    _ = W5 m ρ c (Proc.devRef .tc main_arg5) := by host_keep hostOps1_1
    _ = W4 m ρ c (Proc.devRef .tc main_arg5) := by host_keep hostOps1
    _ = W3 m ρ c (Proc.devRef .tc main_arg5) := W4_of_ne m ρ c main_arg5 (by decide)
    _ = W2 m ρ c (Proc.devRef .tc main_arg5) := by host_keep hostOps0_2
    _ = W1 m ρ c (Proc.devRef .tc main_arg5) := by host_keep hostOps0_1
    _ = W0 m ρ c (Proc.devRef .tc main_arg5) := by host_keep hostOps0

/-- The buffer main_v3 holds at boundary 2 what it held at boundary 1. -/
theorem carry_v3_2_1 (c : Dev nD) : W2 m ρ c (Proc.devRef .tc main_v3) = W1 m ρ c (Proc.devRef .tc main_v3) :=
  calc W2 m ρ c (Proc.devRef .tc main_v3)
    _ = W1 m ρ c (Proc.devRef .tc main_v3) := by host_keep hostOps0_1

/-- The buffer main_v6 holds at boundary 2 what it held at boundary 1. -/
theorem carry_v6_2_1 (c : Dev nD) : W2 m ρ c (Proc.devRef .tc main_v6) = W1 m ρ c (Proc.devRef .tc main_v6) :=
  calc W2 m ρ c (Proc.devRef .tc main_v6)
    _ = W1 m ρ c (Proc.devRef .tc main_v6) := by host_keep hostOps0_1

/-- The buffer main_v3 holds at boundary 4 what it held at boundary 2. -/
theorem carry_v3_4_2 (c : Dev nD) : W4 m ρ c (Proc.devRef .tc main_v3) = W2 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by host_keep hostOps0_2

/-- The buffer main_v3 holds at boundary 10 what it held at boundary 4. -/
theorem carry_v3_10_4 (c : Dev nD) : W10 m ρ c (Proc.devRef .tc main_v3) = W4 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := by host_keep hostOps2
    _ = W6 m ρ c (Proc.devRef .tc main_v3) := W7_of_ne m ρ c main_v3 (by decide)
    _ = W5 m ρ c (Proc.devRef .tc main_v3) := by host_keep hostOps1_1
    _ = W4 m ρ c (Proc.devRef .tc main_v3) := by host_keep hostOps1

/-- The buffer main_v6 holds at boundary 7 what it held at boundary 2. -/
theorem carry_v6_7_2 (c : Dev nD) : W7 m ρ c (Proc.devRef .tc main_v6) = W2 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := by host_keep hostOps1_1
    _ = W4 m ρ c (Proc.devRef .tc main_v6) := by host_keep hostOps1
    _ = W3 m ρ c (Proc.devRef .tc main_v6) := W4_of_ne m ρ c main_v6 (by decide)
    _ = W2 m ρ c (Proc.devRef .tc main_v6) := by host_keep hostOps0_2

/-- The buffer main_v6 holds at boundary 13 what it held at boundary 7. -/
theorem carry_v6_13_7 (c : Dev nD) : W13 m ρ c (Proc.devRef .tc main_v6) = W7 m ρ c (Proc.devRef .tc main_v6) :=
  calc W13 m ρ c (Proc.devRef .tc main_v6)
    _ = W12 m ρ c (Proc.devRef .tc main_v6) := W13_of_ne m ρ c main_v6 (by decide)
    _ = W11 m ρ c (Proc.devRef .tc main_v6) := by host_keep hostOps4_1
    _ = W10 m ρ c (Proc.devRef .tc main_v6) := by host_keep hostOps4
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := by host_keep hostOps2

/-- The buffer main_v30 holds at boundary 5 what it held at boundary 3. -/
theorem carry_v30_5_3 (c : Dev nD) : W5 m ρ c (Proc.devRef .tc main_v30) = W3 m ρ c (Proc.devRef .tc main_v30) :=
  calc W5 m ρ c (Proc.devRef .tc main_v30)
    _ = W4 m ρ c (Proc.devRef .tc main_v30) := by host_keep hostOps1
    _ = W3 m ρ c (Proc.devRef .tc main_v30) := W4_of_ne m ρ c main_v30 (by decide)

/-- The buffer main_v30 holds at boundary 11 what it held at boundary 5. -/
theorem carry_v30_11_5 (c : Dev nD) : W11 m ρ c (Proc.devRef .tc main_v30) = W5 m ρ c (Proc.devRef .tc main_v30) :=
  calc W11 m ρ c (Proc.devRef .tc main_v30)
    _ = W10 m ρ c (Proc.devRef .tc main_v30) := by host_keep hostOps4
    _ = W9 m ρ c (Proc.devRef .tc main_v30) := W10_of_ne m ρ c main_v30 (by decide)
    _ = W8 m ρ c (Proc.devRef .tc main_v30) := W9_of_ne m ρ c main_v30 (by decide)
    _ = W7 m ρ c (Proc.devRef .tc main_v30) := by host_keep hostOps2
    _ = W6 m ρ c (Proc.devRef .tc main_v30) := W7_of_ne m ρ c main_v30 (by decide)
    _ = W5 m ρ c (Proc.devRef .tc main_v30) := by host_keep hostOps1_1

/-- The buffer main_v32 holds at boundary 6 what it held at boundary 5. -/
theorem carry_v32_6_5 (c : Dev nD) : W6 m ρ c (Proc.devRef .tc main_v32) = W5 m ρ c (Proc.devRef .tc main_v32) :=
  calc W6 m ρ c (Proc.devRef .tc main_v32)
    _ = W5 m ρ c (Proc.devRef .tc main_v32) := by host_keep hostOps1_1

/-- The buffer main_v41 holds at boundary 12 what it held at boundary 11. -/
theorem carry_v41_12_11 (c : Dev nD) : W12 m ρ c (Proc.devRef .tc main_v41) = W11 m ρ c (Proc.devRef .tc main_v41) :=
  calc W12 m ρ c (Proc.devRef .tc main_v41)
    _ = W11 m ρ c (Proc.devRef .tc main_v41) := by host_keep hostOps4_1

end Cert.KernelIdeal.Walk

end
-- ==== Proof.WalkTake2.lean ====
/- The second gather stretch of @main (the row gather of layer 2, width 32), laid out from the hand text of the first one (the section
   FirstGather of proof/Proof/Walk.lean, width 16) by substituting the operation list, the call's buffer names and the width;
   the substitutions are listed in the script. -/
import proofs.«424739_j22832046145825_2_alg».proof.Proof.Walk

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

variable {F : FTy → Type} [FloatOps F]

section SecondGather
variable (X : Valuation τ sig (Elt F))
/-- The second gather's operations in three runs: the wrapped index column; the range mask; the masked gather. -/
abbrev take2A : List (HloOp τ sig (Elt F)) := hostOps4.take 8
abbrev take2B : List (HloOp τ sig (Elt F)) := (hostOps4.drop 8).take 10
abbrev take2C : List (HloOp τ sig (Elt F)) := hostOps4.drop 18

theorem hostOps4_split : (hostOps4 : List (HloOp τ sig (Elt F))) = take2A ++ (take2B ++ take2C) := rfl

theorem take2_chunks : after hostOps4 X = after take2C (after take2B (after take2A X)) := by
  rw [hostOps4_split, StableHlo.after_append, StableHlo.after_append]

theorem take2A_v5 : after take2A X (Proc.devRef .tc main_call2_v5) = wrap (X (Proc.devRef .tc main_v3)) := by
  simp only [take2A, hostOps4, List.take_succ_cons, List.take_zero]
  after_results; rfl
theorem take2A_keep : after take2A X (Proc.devRef .tc main_v40) = X (Proc.devRef .tc main_v40) := by
  host_keep take2A
theorem take2B_v12 : after take2B X (Proc.devRef .tc main_call2_v12) = inRange (X (Proc.devRef .tc main_call2_v5)) := by
  simp only [take2B, hostOps4, List.drop_succ_cons, List.drop_zero, List.take_succ_cons, List.take_zero]
  after_results
  simp only [TRef.ofBuf, TRef.toBuf, cast_eq]
  rfl
theorem take2B_keep_v5 : after take2B X (Proc.devRef .tc main_call2_v5) = X (Proc.devRef .tc main_call2_v5) := by
  host_keep take2B
theorem take2B_keep : after take2B X (Proc.devRef .tc main_v40) = X (Proc.devRef .tc main_v40) := by
  host_keep take2B
theorem take2C_out : after take2C X (Proc.devRef .tc main_v41)
    = select (broadcastInDim S3300000x32 ![0] bcast_S3300000_S3300000x32_0 (X (Proc.devRef .tc main_call2_v12))) (Host.gather gather_S100000x32_S3300000x1_S3300000x32_1_0_n_n_0_1_132 (X (Proc.devRef .tc main_v40)) (X (Proc.devRef .tc main_call2_v5))) (broadcastInDim S3300000x32 ![] bcast_S_S3300000x32 (constant S_ .f32 0x7FC00000#32)) := by
  simp only [take2C, hostOps4, List.drop_succ_cons, List.drop_zero]
  after_results; rfl

/-- The second gather stretch: the rows of the dense layer's output at the wrapped source indices, masked by the range test. -/
theorem s4_v41 : after hostOps4 X (Proc.devRef .tc main_v41) = take32 (X (Proc.devRef .tc main_v40)) (X (Proc.devRef .tc main_v3)) := by
  rw [take2_chunks]
  refine (take2C_out _).trans ?_
  rw [take2B_v12, take2B_keep_v5, take2B_keep, take2A_v5, take2A_keep]
  rfl

end SecondGather

end Cert.KernelIdeal.Walk

end
-- ==== Proof.WalkValues.lean ====
/-
  The kernel program's result, read through @main from the launch to the return.
  The buffer contents at @main's fifteen boundaries are a fold from the launch memory (the generated frame's `W0` … `W15`).
  This module walks the fold one segment at a time and says what each buffer of interest holds at each boundary, as a
  function of the six argument arrays: first the graph side (source list, destination list, edge weights), then, layer
  by layer, the dense transform (region 0 / 3), the gathered rows (fill-mode gather), the weighted messages
  (region 1 / 4), their scatter-add over the destinations and the bias epilogue (region 2 / 5). What a region leaves in
  its output array is a hypothesis here (`RegionVals`: the array is one whole-array function of the two arrays the
  region reads), so this module does not depend on how a region's body is read; a buffer a segment does not write is
  carried across it by the table of carry facts.
-/
import proofs.«424739_j22832046145825_2_alg».proof.Proof.WalkCarry
import proofs.«424739_j22832046145825_2_alg».proof.Proof.WalkTake2

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

variable {F : FTy → Type} [FloatOps F]

/-- What the six regions compute: each leaves in its output array ONE function of the two arrays it reads, whatever
    contents `V` it is entered with. -/
structure RegionVals (F : FTy → Type) [FloatOps F] where
  G0 : FVec F S100000x128 .f32 → FVec F S128x16 .f32 → FVec F S100000x16 .f32
  G1 : FVec F S3300000x16 .f32 → FVec F S3300000x1 .f32 → FVec F S3300000x16 .f32
  G2 : FVec F S100000x16 .f32 → FVec F S1x16 .f32 → FVec F S100000x16 .f32
  G3 : FVec F S100000x16 .f32 → FVec F S16x32 .f32 → FVec F S100000x32 .f32
  G4 : FVec F S3300000x32 .f32 → FVec F S3300000x1 .f32 → FVec F S3300000x32 .f32
  G5 : FVec F S100000x32 .f32 → FVec F S1x32 .f32 → FVec F S100000x32 .f32
  h0 : ∀ (V : (c : Dev nD) → (b : Ref sig .tc) → Buf (Elt F) ((c : Thread nD τ).loc b)) (c : Dev nD), (dat0 V c).arrAt 2 cfg0.N = G0 (V c main_arg0) (V c main_arg2)
  h1 : ∀ (V : (c : Dev nD) → (b : Ref sig .tc) → Buf (Elt F) ((c : Thread nD τ).loc b)) (c : Dev nD), (dat1 V c).arrAt 2 cfg1.N = G1 (V c main_v32) (V c main_v33)
  h2 : ∀ (V : (c : Dev nD) → (b : Ref sig .tc) → Buf (Elt F) ((c : Thread nD τ).loc b)) (c : Dev nD), (dat2 V c).arrAt 2 cfg2.N = G2 (V c main_v37) (V c main_v38)
  h3 : ∀ (V : (c : Dev nD) → (b : Ref sig .tc) → Buf (Elt F) ((c : Thread nD τ).loc b)) (c : Dev nD), (dat3 V c).arrAt 2 cfg3.N = G3 (V c main_v39) (V c main_arg4)
  h4 : ∀ (V : (c : Dev nD) → (b : Ref sig .tc) → Buf (Elt F) ((c : Thread nD τ).loc b)) (c : Dev nD), (dat4 V c).arrAt 2 cfg4.N = G4 (V c main_v41) (V c main_v42)
  h5 : ∀ (V : (c : Dev nD) → (b : Ref sig .tc) → Buf (Elt F) ((c : Thread nD τ).loc b)) (c : Dev nD), (dat5 V c).arrAt 2 cfg5.N = G5 (V c main_v46) (V c main_v47)

/-! ## The values, layer by layer, as functions of the six argument arrays -/

section Values
variable (R : RegionVals F)
variable (x : FVec F S100000x128 .f32) (a1 : IVec S2x3200000 32) (w1 : FVec F S128x16 .f32) (b1 : FVec F S16 .f32) (w2 : FVec F S16x32 .f32) (b2 : FVec F S32 .f32)

/-- Layer 1's messages: the gathered rows of the dense transform, each scaled by its edge weight. -/
def msg1 : FVec F S3300000x16 .f32 := R.G1 (take16 (R.G0 x w1) (src a1)) (shapeCast S3300000x1 (norm a1) shapeCasts_S3300000_S3300000x1)
/-- The hidden layer: layer 1's messages summed per destination, plus the bias, rectified. -/
def hid : FVec F S100000x16 .f32 := R.G2 (scat16 (dst a1) (msg1 R x a1 w1)) (shapeCast S1x16 b1 shapeCasts_S16_S1x16)
/-- Layer 2's messages. -/
def msg2 : FVec F S3300000x32 .f32 := R.G4 (take32 (R.G3 (hid R x a1 w1 b1) w2) (src a1)) (shapeCast S3300000x1 (norm a1) shapeCasts_S3300000_S3300000x1)
/-- The result: layer 2's messages summed per destination, plus the bias. -/
def out : FVec F S100000x32 .f32 := R.G5 (scat32 (dst a1) (msg2 R x a1 w1 b1 w2)) (shapeCast S1x32 b2 shapeCasts_S32_S1x32)
end Values

/-! ## The fold, boundary by boundary -/

section Levels
variable (m : (ℓ : Loc nD τ sig) → Buf (Elt F) ℓ) (ρ : Dev nD → PrngReg) (R : RegionVals F) (c : Dev nD)

theorem L3_arg0 : W3 m ρ c (Proc.devRef .tc main_arg0) = (m ((c : Thread nD τ).loc main_arg0)) := (carry_arg0_3_0 m ρ c).trans rfl
theorem L3_arg2 : W3 m ρ c (Proc.devRef .tc main_arg2) = (m ((c : Thread nD τ).loc main_arg2)) := (carry_arg2_3_0 m ρ c).trans rfl
theorem L7_arg3 : W7 m ρ c (Proc.devRef .tc main_arg3) = (m ((c : Thread nD τ).loc main_arg3)) := (carry_arg3_7_0 m ρ c).trans rfl
theorem L9_arg4 : W9 m ρ c (Proc.devRef .tc main_arg4) = (m ((c : Thread nD τ).loc main_arg4)) := (carry_arg4_9_0 m ρ c).trans rfl
theorem L13_arg5 : W13 m ρ c (Proc.devRef .tc main_arg5) = (m ((c : Thread nD τ).loc main_arg5)) := (carry_arg5_13_0 m ρ c).trans rfl

/-- After the first stretch the source list is row 0 of the edge list with the self loops, -/
theorem L1_v3 : W1 m ρ c (Proc.devRef .tc main_v3) = src (m ((c : Thread nD τ).loc main_arg1)) := s0_v3 (W0 m ρ c)
/-- and the destination list is row 1 with the self loops. -/
theorem L1_v6 : W1 m ρ c (Proc.devRef .tc main_v6) = dst (m ((c : Thread nD τ).loc main_arg1)) := s0_v6 (W0 m ρ c)
theorem L2_v3 : W2 m ρ c (Proc.devRef .tc main_v3) = src (m ((c : Thread nD τ).loc main_arg1)) := (carry_v3_2_1 m ρ c).trans (L1_v3 m ρ c)
theorem L2_v6 : W2 m ρ c (Proc.devRef .tc main_v6) = dst (m ((c : Thread nD τ).loc main_arg1)) := (carry_v6_2_1 m ρ c).trans (L1_v6 m ρ c)

/-- The node weights: deg^(-1/2) where the degree is positive, 0 elsewhere. -/
theorem L2_v15 : W2 m ρ c (Proc.devRef .tc main_v15) = dinv (m ((c : Thread nD τ).loc main_arg1)) := by
  refine (s01_v15 (W1 m ρ c)).trans ?_
  rw [show W1 m ρ c (Proc.devRef .tc main_v12) = degPos (F := F) (m ((c : Thread nD τ).loc main_arg1)) from s0_v12 (W0 m ρ c),
    show W1 m ρ c (Proc.devRef .tc main_v14) = degPow (F := F) (m ((c : Thread nD τ).loc main_arg1)) from s0_v14 (W0 m ρ c),
    show W1 m ρ c (Proc.devRef .tc main_cst_3) = constant (F := F) S_ .f32 0x00000000#32 from s0_cst3 (W0 m ρ c)]
  rfl

/-- The edge weights at region 0's entry. -/
theorem L3_v30 : W3 m ρ c (Proc.devRef .tc main_v30) = norm (m ((c : Thread nD τ).loc main_arg1)) := by
  refine (s02_v30 (W2 m ρ c)).trans ?_
  rw [L2_v15 m ρ c, L2_v3 m ρ c, L2_v6 m ρ c]
  rfl

theorem L4_v3 : W4 m ρ c (Proc.devRef .tc main_v3) = src (m ((c : Thread nD τ).loc main_arg1)) := (carry_v3_4_2 m ρ c).trans (L2_v3 m ρ c)
theorem L5_v30 : W5 m ρ c (Proc.devRef .tc main_v30) = norm (m ((c : Thread nD τ).loc main_arg1)) := (carry_v30_5_3 m ρ c).trans (L3_v30 m ρ c)

/-- Region 0 leaves the first dense transform of the node features. -/
theorem L4_v31 : W4 m ρ c (Proc.devRef .tc main_v31) = R.G0 (m ((c : Thread nD τ).loc main_arg0)) (m ((c : Thread nD τ).loc main_arg2)) := by
  refine (W4_arr m ρ c 2).trans ((R.h0 (V3 m ρ) c).trans ?_)
  show R.G0 (W3 m ρ c (Proc.devRef .tc main_arg0)) (W3 m ρ c (Proc.devRef .tc main_arg2)) = _
  rw [L3_arg0 m ρ c, L3_arg2 m ρ c]

/-- The first gather. -/
theorem L5_v32 : W5 m ρ c (Proc.devRef .tc main_v32) = take16 (R.G0 (m ((c : Thread nD τ).loc main_arg0)) (m ((c : Thread nD τ).loc main_arg2))) (src (m ((c : Thread nD τ).loc main_arg1))) := by
  refine (s1_v32 (W4 m ρ c)).trans ?_
  rw [L4_v31 m ρ R c, L4_v3 m ρ c]

theorem L6_v32 : W6 m ρ c (Proc.devRef .tc main_v32) = take16 (R.G0 (m ((c : Thread nD τ).loc main_arg0)) (m ((c : Thread nD τ).loc main_arg2))) (src (m ((c : Thread nD τ).loc main_arg1))) := (carry_v32_6_5 m ρ c).trans (L5_v32 m ρ R c)
theorem L6_v33 : W6 m ρ c (Proc.devRef .tc main_v33) = shapeCast S3300000x1 (norm (F := F) (m ((c : Thread nD τ).loc main_arg1))) shapeCasts_S3300000_S3300000x1 := by
  refine (s11_v33 (W5 m ρ c)).trans ?_
  rw [L5_v30 m ρ c]

/-- Region 1 leaves layer 1's messages. -/
theorem L7_v34 : W7 m ρ c (Proc.devRef .tc main_v34) = msg1 R (m ((c : Thread nD τ).loc main_arg0)) (m ((c : Thread nD τ).loc main_arg1)) (m ((c : Thread nD τ).loc main_arg2)) := by
  refine (W7_arr m ρ c 2).trans ((R.h1 (V6 m ρ) c).trans ?_)
  show R.G1 (W6 m ρ c (Proc.devRef .tc main_v32)) (W6 m ρ c (Proc.devRef .tc main_v33)) = _
  rw [L6_v32 m ρ R c, L6_v33 m ρ c]
  rfl

theorem L7_v6 : W7 m ρ c (Proc.devRef .tc main_v6) = dst (m ((c : Thread nD τ).loc main_arg1)) := (carry_v6_7_2 m ρ c).trans (L2_v6 m ρ c)

theorem L8_v37 : W8 m ρ c (Proc.devRef .tc main_v37) = scat16 (dst (m ((c : Thread nD τ).loc main_arg1))) (msg1 R (m ((c : Thread nD τ).loc main_arg0)) (m ((c : Thread nD τ).loc main_arg1)) (m ((c : Thread nD τ).loc main_arg2))) := by
  refine (s2_v37 (W7 m ρ c)).trans ?_
  rw [L7_v6 m ρ c, L7_v34 m ρ R c]
theorem L8_v38 : W8 m ρ c (Proc.devRef .tc main_v38) = shapeCast S1x16 (m ((c : Thread nD τ).loc main_arg3)) shapeCasts_S16_S1x16 := by
  refine (s2_v38 (W7 m ρ c)).trans ?_
  rw [L7_arg3 m ρ c]

/-- Region 2 leaves the hidden layer. -/
theorem L9_v39 : W9 m ρ c (Proc.devRef .tc main_v39) = hid R (m ((c : Thread nD τ).loc main_arg0)) (m ((c : Thread nD τ).loc main_arg1)) (m ((c : Thread nD τ).loc main_arg2)) (m ((c : Thread nD τ).loc main_arg3)) := by
  refine (W9_arr m ρ c 2).trans ((R.h2 (V8 m ρ) c).trans ?_)
  show R.G2 (W8 m ρ c (Proc.devRef .tc main_v37)) (W8 m ρ c (Proc.devRef .tc main_v38)) = _
  rw [L8_v37 m ρ R c, L8_v38 m ρ c]
  rfl

/-- Region 3 leaves the second dense transform, of the hidden layer. -/
theorem L10_v40 : W10 m ρ c (Proc.devRef .tc main_v40) = R.G3 (hid R (m ((c : Thread nD τ).loc main_arg0)) (m ((c : Thread nD τ).loc main_arg1)) (m ((c : Thread nD τ).loc main_arg2)) (m ((c : Thread nD τ).loc main_arg3))) (m ((c : Thread nD τ).loc main_arg4)) := by
  refine (W10_arr m ρ c 2).trans ((R.h3 (V9 m ρ) c).trans ?_)
  show R.G3 (W9 m ρ c (Proc.devRef .tc main_v39)) (W9 m ρ c (Proc.devRef .tc main_arg4)) = _
  rw [L9_v39 m ρ R c, L9_arg4 m ρ c]

theorem L10_v3 : W10 m ρ c (Proc.devRef .tc main_v3) = src (m ((c : Thread nD τ).loc main_arg1)) := (carry_v3_10_4 m ρ c).trans (L4_v3 m ρ c)
theorem L11_v30 : W11 m ρ c (Proc.devRef .tc main_v30) = norm (m ((c : Thread nD τ).loc main_arg1)) := (carry_v30_11_5 m ρ c).trans (L5_v30 m ρ c)

/-- The second gather. -/
theorem L11_v41 : W11 m ρ c (Proc.devRef .tc main_v41) = take32 (R.G3 (hid R (m ((c : Thread nD τ).loc main_arg0)) (m ((c : Thread nD τ).loc main_arg1)) (m ((c : Thread nD τ).loc main_arg2)) (m ((c : Thread nD τ).loc main_arg3))) (m ((c : Thread nD τ).loc main_arg4))) (src (m ((c : Thread nD τ).loc main_arg1))) := by
  refine (s4_v41 (W10 m ρ c)).trans ?_
  rw [L10_v40 m ρ R c, L10_v3 m ρ c]

theorem L12_v41 : W12 m ρ c (Proc.devRef .tc main_v41) = take32 (R.G3 (hid R (m ((c : Thread nD τ).loc main_arg0)) (m ((c : Thread nD τ).loc main_arg1)) (m ((c : Thread nD τ).loc main_arg2)) (m ((c : Thread nD τ).loc main_arg3))) (m ((c : Thread nD τ).loc main_arg4))) (src (m ((c : Thread nD τ).loc main_arg1))) := (carry_v41_12_11 m ρ c).trans (L11_v41 m ρ R c)
theorem L12_v42 : W12 m ρ c (Proc.devRef .tc main_v42) = shapeCast S3300000x1 (norm (F := F) (m ((c : Thread nD τ).loc main_arg1))) shapeCasts_S3300000_S3300000x1 := by
  refine (s41_v42 (W11 m ρ c)).trans ?_
  rw [L11_v30 m ρ c]

/-- Region 4 leaves layer 2's messages. -/
theorem L13_v43 : W13 m ρ c (Proc.devRef .tc main_v43) = msg2 R (m ((c : Thread nD τ).loc main_arg0)) (m ((c : Thread nD τ).loc main_arg1)) (m ((c : Thread nD τ).loc main_arg2)) (m ((c : Thread nD τ).loc main_arg3)) (m ((c : Thread nD τ).loc main_arg4)) := by
  refine (W13_arr m ρ c 2).trans ((R.h4 (V12 m ρ) c).trans ?_)
  show R.G4 (W12 m ρ c (Proc.devRef .tc main_v41)) (W12 m ρ c (Proc.devRef .tc main_v42)) = _
  rw [L12_v41 m ρ R c, L12_v42 m ρ c]
  rfl

theorem L13_v6 : W13 m ρ c (Proc.devRef .tc main_v6) = dst (m ((c : Thread nD τ).loc main_arg1)) := (carry_v6_13_7 m ρ c).trans (L7_v6 m ρ c)

theorem L14_v46 : W14 m ρ c (Proc.devRef .tc main_v46) = scat32 (dst (m ((c : Thread nD τ).loc main_arg1))) (msg2 R (m ((c : Thread nD τ).loc main_arg0)) (m ((c : Thread nD τ).loc main_arg1)) (m ((c : Thread nD τ).loc main_arg2)) (m ((c : Thread nD τ).loc main_arg3)) (m ((c : Thread nD τ).loc main_arg4))) := by
  refine (s5_v46 (W13 m ρ c)).trans ?_
  rw [L13_v6 m ρ c, L13_v43 m ρ R c]
theorem L14_v47 : W14 m ρ c (Proc.devRef .tc main_v47) = shapeCast S1x32 (m ((c : Thread nD τ).loc main_arg5)) shapeCasts_S32_S1x32 := by
  refine (s5_v47 (W13 m ρ c)).trans ?_
  rw [L13_arg5 m ρ c]

/-- THE RESULT BUFFER at the last boundary: the layered function `out` of the six argument arrays as launched. -/
theorem result : W15 m ρ c (Proc.devRef .tc main_v48) = out R (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W15_arr m ρ c 2).trans ((R.h5 (V14 m ρ) c).trans ?_)
  show R.G5 (W14 m ρ c (Proc.devRef .tc main_v46)) (W14 m ρ c (Proc.devRef .tc main_v47)) = _
  rw [L14_v46 m ρ R c, L14_v47 m ρ c]
  rfl

end Levels

end Cert.KernelIdeal.Walk

end
-- ==== Proof.Region0.lean ====
/-
  Region 0 (the first dense layer), read as ONE whole-array function at any contents `V` the region is entered
  with, at the ideal values (extended reals: a change of float format is the identity, and a matrix product into a zero
  accumulator is the plain finite sum). The grid has 50 points; point `t` fetches rows `[2000 t, 2000 t + 2000)` of the
  [100000, 128] array of activations (window 0), the whole [128, 16] weight matrix (window 1, the same block at every point)
  and writes back the same rows of the [100000, 16] result (window 2). Its body multiplies the block of rows by the
  weights: entry (p, j) of the block is the sum over k of x (2000 t + p, k) * w (k, j). A row of a matrix product depends
  on that row of the left operand only, so what point `t` writes back is block `t` of `G x w = x · w`, the blocks tile
  the result array, and after the run the array holds `G` of the two arrays as the region found them.
-/
import proofs.«424739_j22832046145825_2_alg».proof.Proof.Gen.KernelIdeal.Frame
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The zero offsets of a whole-block rectangle, in the printed spelling. -/
theorem hz : (![0, 0] : Fin 2 → Nat) = fun _ => 0 := funext fun a => by fin_cases a <;> rfl

/-- The block's dimension numbers are the plain ones: rows × contraction times contraction × columns. -/
theorem dot_eq_plain : dot_S2000x128_S128x16_S2000x16_1_0_0_1_n_n = DotDims.plain 2000 128 16 := rfl

/-- The body's stored value at row `p`, column `j` of the block: the format changes are the identity and the
    accumulator is zero, so it is the sum over the contracted coordinate of the products of the two blocks' entries. -/
theorem pay_apply (x0 : Vec Ideal S2000x128 .f32) (w : Vec Ideal S128x16 .f32) (p : Fin 2000) (j : Fin 16) :
    k0_pay1 x0 w (ix2 p j) = ∑ k : Fin 128, x0 (ix2 p k) * w (ix2 k j) := by
  unfold k0_pay1
  show matmul (F := Ideal) dot_S2000x128_S128x16_S2000x16_1_0_0_1_n_n none (truncf (F := Ideal) .bf16 (x0 : FVec Ideal S2000x128 .f32) bitsLt_bf16_f32)
      (truncf (F := Ideal) .bf16 (w : FVec Ideal S128x16 .f32) bitsLt_bf16_f32) (constant S2000x16 .f32 0x00000000#32) (ix2 p j) = _
  rw [matmul_zero_eq_dotGeneral, dot_eq_plain]
  exact StackMember.dotGeneral_plain_apply none _ _ p j

/-- The whole arrays' dimension numbers: contract axis 1 of the activations with axis 0 of the weights. -/
def dotW : DotDims S100000x128 S128x16 S100000x16 where
  lhsContracting := [1]
  rhsContracting := [0]
  lhsNonContracting := [0]
  rhsNonContracting := [1]
  lhsBatch := []
  rhsBatch := []
  wf := by decide

/-- The whole-array function: the matrix product of the activations by the weights. -/
def G (x : FVec Ideal S100000x128 .f32) (w : FVec Ideal S128x16 .f32) : FVec Ideal S100000x16 .f32 := Host.dotGeneral dotW none x w

/-- The whole arrays' dimension numbers are the plain ones too. -/
theorem dotW_eq_plain : dotW = DotDims.plain 100000 128 16 := rfl

/-- The whole product at row `r`, column `j`: the sum over the contracted coordinate of row `r` of the activations
    times column `j` of the weights. -/
theorem G_apply (x : FVec Ideal S100000x128 .f32) (w : FVec Ideal S128x16 .f32) (r : Fin 100000) (j : Fin 16) :
    G x w (ix2 r j) = ∑ k : Fin 128, x (ix2 r k) * w (ix2 k j) := by
  unfold G
  rw [dotW_eq_plain]
  exact StackMember.dotGeneral_plain_apply none x w r j

/-- The printed index maps over the grid: windows 0 and 2 sit at block row `t`, window 1 stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `G` of the two arrays as the region finds them: row `p` of the block is
    row `2000 t + p` of the activations, and the weights' block is the whole matrix. -/
theorem flushed_eq (c : Dev nD) (t : Fin cfg0.N) :
    (dat0 V c).flushed 2 t = ((cfg0.win 2).blk t).view.read (Elt Ideal) (G (V c main_arg0) (V c main_arg2)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x16) hz]
  obtain ⟨e0, e1, e2, e3, e4, e5⟩ := idx_facts t
  have ht : t.val < 50 := t.isLt
  funext i
  obtain ⟨p, q, rfl⟩ : ∃ (p : Fin 2000) (q : Fin 16), i = ix2 p q := ⟨i 0, i 1, eq_ix2 i⟩
  have hr : t.val * 2000 + p.val < 100000 := by have := p.isLt; omega
  show k0_pay1 (iblk0 V c 0 t) (iblk0 V c 1 t) (ix2 p q) = G (V c main_arg0) (V c main_arg2) (((cfg0.win 2).blk t).view.emb (ix2 p q))
  refine (pay_apply (iblk0 V c 0 t) (iblk0 V c 1 t) p q).trans ?_
  have h2 : ((cfg0.win 2).blk t).view.emb (ix2 p q) = ix2 (⟨t.val * 2000 + p.val, hr⟩ : Fin 100000) q := by
    funext a; apply Fin.ext
    match a with
    | ⟨0, _⟩ => show win0_2.index t (0 : Fin 2) * 2000 + 1 * p.val = t.val * 2000 + p.val; omega
    | ⟨1, _⟩ => show win0_2.index t (1 : Fin 2) * 16 + 1 * q.val = q.val; omega
  rw [h2, G_apply]
  refine Finset.sum_congr rfl fun k _ => ?_
  have h0 : ((cfg0.win 0).blk t).view.emb (ix2 p k) = ix2 (⟨t.val * 2000 + p.val, hr⟩ : Fin 100000) k := by
    funext a; apply Fin.ext
    match a with
    | ⟨0, _⟩ => show win0_0.index t (0 : Fin 2) * 2000 + 1 * p.val = t.val * 2000 + p.val; omega
    | ⟨1, _⟩ => show win0_0.index t (1 : Fin 2) * 128 + 1 * k.val = k.val; omega
  have h1 : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 16 + 1 * q.val = q.val; omega
  have a0 : iblk0 V c 0 t (ix2 p k) = (V c main_arg0 : FVec Ideal S100000x128 .f32) (ix2 (⟨t.val * 2000 + p.val, hr⟩ : Fin 100000) k) := by
    show (V c main_arg0 : FVec Ideal S100000x128 .f32) (((cfg0.win 0).blk t).view.emb (ix2 p k)) = _
    rw [h0]
  have a1 : iblk0 V c 1 t (ix2 k q) = (V c main_arg2 : FVec Ideal S128x16 .f32) (ix2 k q) := by
    show (V c main_arg2 : FVec Ideal S128x16 .f32) (((cfg0.win 1).blk t).view.emb (ix2 k q)) = _
    rw [h1]
  exact congrArg₂ (fun a b : Ideal .f32 => a * b) a0 a1

/-- An index of the result array lies in point `t`'s block iff each coordinate lies in the block's range. -/
theorem mem_blk (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v31).slice (win0_2.rect t)).set ↔ _
  rw [View.set_slice_whole, Rect.mem_set_unit]
  exact Iff.rfl

/-- Row `r` of the result is covered by point `r / 2000`: the 50 blocks tile the array. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  let t : Fin cfg0.N := ⟨(i 0).val / 2000, by show (i 0).val / 2000 < 50; omega⟩
  obtain ⟨e0, e1, e2, e3, e4, e5⟩ := idx_facts t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; rw [e4]; show (i 0).val / 2000 * 2000 ≤ (i 0).val ∧ (i 0).val < (i 0).val / 2000 * 2000 + 2000; omega
  | ⟨1, _⟩ => show win0_2.index t (1 : Fin 2) * 16 ≤ (i 1).val ∧ (i 1).val < win0_2.index t (1 : Fin 2) * 16 + 16; omega

/-- The array region 0 leaves: the matrix product of the activations by the weights, at every row. -/
theorem val (c : Dev nD) : (dat0 V c).arrAt 2 cfg0.N = G (V c main_arg0) (V c main_arg2) :=
  (dat0 V c).arrAt_eq_of_cover 2 (G (V c main_arg0) (V c main_arg2)) (fun t _ => flushed_eq V c t) cover

end Cert.KernelIdeal.Region0

end
-- ==== Proof.Region1.lean ====
/-
  Region 1 (the per-edge scaling at width 16), read as ONE whole-array function at any contents `V` the region is
  entered with. The grid has 825 points; point `t` fetches rows `[4000 t, 4000 t + 4000)` of the [3300000, 16] array
  of gathered messages (window 0), the same rows of the [3300000, 1] column of edge weights (window 1) and writes
  back the same rows of the result (window 2). Its body multiplies every row of the block by that row's weight. So
  what point `t` writes back is block `t` of `G messages weights = messages * (weights broadcast along the columns)`,
  the blocks tile the result array, and after the run the array holds `G` of the two arrays as the region found them.
-/
import proofs.«424739_j22832046145825_2_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)

variable {F : FTy → Type} [FloatOps F]
variable (V : (c : Dev nD) → (b : Ref sig .tc) → Buf (Elt F) ((c : Thread nD τ).loc b))

/-- The zero offsets of a whole-block rectangle, in the printed spelling. -/
theorem hz : (![0, 0] : Fin 2 → Nat) = fun _ => 0 := funext fun a => by fin_cases a <;> rfl

/-- A [4000, 1] column broadcast to [4000, 16] reads, at row `p` and any column, the column's entry at row `p`:
    axis 0 has more than one entry and is kept, axis 1 is the unit axis and reads its only entry. -/
theorem col_apply (x1 : Vec F S4000x1 .f32) (p : Fin 4000) (q : Fin 16) :
    broadcastTo S4000x16 x1 broadcasts_S4000x1_S4000x16 (ix2 p q) = x1 (ix2 p (0 : Fin 1)) := by
  refine broadcastTo_apply x1 broadcasts_S4000x1_S4000x16 (ix2 p q) (ix2 p (0 : Fin 1)) fun a => ?_
  match a with
  | ⟨0, _⟩ => rfl
  | ⟨1, _⟩ => rfl

/-- The body's stored value at row `p`, column `q` of the block: the block's entry times the weight of row `p`. -/
theorem pay_apply (x0 : Vec F S4000x16 .f32) (x1 : Vec F S4000x1 .f32) (p : Fin 4000) (q : Fin 16) :
    k1_pay1 x0 x1 (ix2 p q) = FloatOps.mulf (x0 (ix2 p q)) (x1 (ix2 p (0 : Fin 1))) := by
  unfold k1_pay1
  rw [shapeCast_self, shapeCast_self]
  exact congrArg (FloatOps.mulf (x0 (ix2 p q))) (col_apply x1 p q)

/-- A [3300000, 1] column broadcasts over [3300000, 16] along both axes in place. -/
theorem bc : S3300000x1.BroadcastsInDim S3300000x16 (![0, 1] : Fin 2 → Fin 2) := by decide

/-- The whole-array function: every row of `g` times that row's entry of the column `n`. -/
def G (g : FVec F S3300000x16 .f32) (n : FVec F S3300000x1 .f32) : FVec F S3300000x16 .f32 :=
  mulf g (broadcastInDim S3300000x16 ![0, 1] bc n)

/-- The printed index maps over the grid: all three windows sit at block row `t`, block column 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `G` of the two arrays as the region finds them. -/
theorem flushed_eq (c : Dev nD) (t : Fin cfg1.N) :
    (dat1 V c).flushed 2 t = ((cfg1.win 2).blk t).view.read (Elt F) (G (V c main_v32) (V c main_v33)) := by
  show (cfg1.win 2).cut (grid1.coords t) ((dat1 V c).after 2 t) = _
  rw [after1_2]
  unfold out1_2
  rw [View.canon_unit_zero hz]
  simp only [View.ld_unit_zero (S := S4000x16) hz, View.ld_unit_zero (S := S4000x1) hz]
  obtain ⟨e0, e1, e2, e3, e4, e5⟩ := idx_facts t
  funext j
  obtain ⟨p, q, rfl⟩ : ∃ (p : Fin 4000) (q : Fin 16), j = ix2 p q := ⟨j 0, j 1, eq_ix2 j⟩
  show k1_pay1 (iblk1 V c 0 t) (iblk1 V c 1 t) (ix2 p q) = G (V c main_v32) (V c main_v33) (((cfg1.win 2).blk t).view.emb (ix2 p q))
  refine (pay_apply (iblk1 V c 0 t) (iblk1 V c 1 t) p q).trans ?_
  show FloatOps.mulf (V c main_v32 (((cfg1.win 0).blk t).view.emb (ix2 p q))) (V c main_v33 (((cfg1.win 1).blk t).view.emb (ix2 p (0 : Fin 1))))
    = FloatOps.mulf (V c main_v32 (((cfg1.win 2).blk t).view.emb (ix2 p q))) (broadcastInDim S3300000x16 ![0, 1] bc (V c main_v33 : FVec F S3300000x1 .f32) (((cfg1.win 2).blk t).view.emb (ix2 p q)))
  have h0 : ((cfg1.win 0).blk t).view.emb (ix2 p q) = ((cfg1.win 2).blk t).view.emb (ix2 p q) := by
    funext a; apply Fin.ext
    match a with
    | ⟨0, _⟩ => show win1_0.index t (0 : Fin 2) * 4000 + 1 * p.val = win1_2.index t (0 : Fin 2) * 4000 + 1 * p.val; omega
    | ⟨1, _⟩ => show win1_0.index t (1 : Fin 2) * 16 + 1 * q.val = win1_2.index t (1 : Fin 2) * 16 + 1 * q.val; omega
  have h1 : broadcastInDim S3300000x16 ![0, 1] bc (V c main_v33 : FVec F S3300000x1 .f32) (((cfg1.win 2).blk t).view.emb (ix2 p q))
      = V c main_v33 (((cfg1.win 1).blk t).view.emb (ix2 p (0 : Fin 1))) := by
    refine broadcastInDim_apply _ _ _ _ _ fun a => ?_
    match a with
    | ⟨0, _⟩ => show win1_1.index t (0 : Fin 2) * 4000 + 1 * p.val = win1_2.index t (0 : Fin 2) * 4000 + 1 * p.val; omega
    | ⟨1, _⟩ => show win1_1.index t (1 : Fin 2) * 1 + 1 * 0 = 0; omega
  rw [h0, h1]

/-- An index of the result array lies in point `t`'s block iff each coordinate lies in the block's range. -/
theorem mem_blk (t : Fin cfg1.N) (i : S3300000x16.Idx) :
    i ∈ ((cfg1.win 2).blk t).view.set ↔ ∀ a : Fin 2, win1_2.index t a * S4000x16.size a ≤ (i a).val ∧ (i a).val < win1_2.index t a * S4000x16.size a + S4000x16.size a := by
  show i ∈ ((View.whole main_v34).slice (win1_2.rect t)).set ↔ _
  rw [View.set_slice_whole, Rect.mem_set_unit]
  exact Iff.rfl

/-- Row `r` of the result is covered by point `r / 4000`: the 825 blocks tile the array. -/
theorem cover (i : S3300000x16.Idx) : ∃ t : Fin cfg1.N, (cfg1.win 2).flush t = true ∧ i ∈ ((cfg1.win 2).blk t).view.set := by
  have hi0 : (i 0).val < 3300000 := (i 0).isLt
  have hi1 : (i 1).val < 16 := (i 1).isLt
  let t : Fin cfg1.N := ⟨(i 0).val / 4000, by show (i 0).val / 4000 < 825; omega⟩
  obtain ⟨e0, e1, e2, e3, e4, e5⟩ := idx_facts t
  refine ⟨t, flush1_2 t, ?_⟩
  rw [mem_blk]
  intro a
  match a with
  | ⟨0, _⟩ => show win1_2.index t (0 : Fin 2) * 4000 ≤ (i 0).val ∧ (i 0).val < win1_2.index t (0 : Fin 2) * 4000 + 4000; rw [e4]; show (i 0).val / 4000 * 4000 ≤ (i 0).val ∧ (i 0).val < (i 0).val / 4000 * 4000 + 4000; omega
  | ⟨1, _⟩ => show win1_2.index t (1 : Fin 2) * 16 ≤ (i 1).val ∧ (i 1).val < win1_2.index t (1 : Fin 2) * 16 + 16; omega

/-- The array region 1 leaves: every gathered message times its edge's weight, at every row. -/
theorem val (c : Dev nD) : (dat1 V c).arrAt 2 cfg1.N = G (V c main_v32) (V c main_v33) :=
  (dat1 V c).arrAt_eq_of_cover 2 (G (V c main_v32) (V c main_v33)) (fun t _ => flushed_eq V c t) cover

end Cert.KernelIdeal.Region1

end
-- ==== Proof.Region2.lean ====
/-
  Region 2 (the bias add followed by the rectifier), read as ONE whole-array function at any contents `V` the region
  is entered with. The grid has 50 points; point `t` fetches rows `[2000 t, 2000 t + 2000)` of the [100000, 16] array
  of scattered sums (window 0), the one [1, 16] bias row (window 1, the same block at every point) and writes back
  the same rows of the result (window 2). Its body adds the bias row to every row of the block and takes the maximum
  with zero, entry by entry. So what point `t` writes back is block `t` of
  `G sums bias = max (sums + (bias broadcast along the rows)) 0`, the blocks tile the result array, and after the run
  the array holds `G` of the two arrays as the region found them.
-/
import proofs.«424739_j22832046145825_2_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat Cfg Window)

variable {F : FTy → Type} [FloatOps F]
variable (V : (c : Dev nD) → (b : Ref sig .tc) → Buf (Elt F) ((c : Thread nD τ).loc b))

/-- The zero offsets of a whole-block rectangle, in the printed spelling. -/
theorem hz : (![0, 0] : Fin 2 → Nat) = fun _ => 0 := funext fun a => by fin_cases a <;> rfl

/-- The body's stored value at row `p`, column `q` of the block: the maximum of zero and the block's entry plus the
    bias row's entry at `q`. The zero is the scalar whose word is all zero bits, read the same at every entry. -/
theorem pay_apply (x0 : Vec F S2000x16 .f32) (x1 : Vec F S1x16 .f32) (p : Fin 2000) (q : Fin 16) :
    k2_pay1 x0 x1 (ix2 p q)
      = FloatOps.maximumf (FloatOps.addf (x0 (ix2 p q)) (x1 (ix2 0 q))) (Scalar.ofBits .f32 0x00000000#32) := by
  unfold k2_pay1
  rw [shapeCast_self, shapeCast_self]
  exact congrArg (fun z => FloatOps.maximumf (FloatOps.addf (x0 (ix2 p q)) z) (Scalar.ofBits .f32 0x00000000#32))
    (broadcastTo_1b_ab_apply x1 broadcasts_S1x16_S2000x16 p q)

/-- A [1, 16] row broadcasts over [100000, 16] along both axes in place. -/
theorem bc : S1x16.BroadcastsInDim S100000x16 (![0, 1] : Fin 2 → Fin 2) := by decide

/-- A scalar broadcasts over [100000, 16] with no axis of its own. -/
theorem bc0 : S_.BroadcastsInDim S100000x16 (![] : Fin 0 → Fin 2) := by decide

/-- The whole-array function: every row of `s` plus the row `b`, then the maximum with zero at every entry. -/
def G (s : FVec F S100000x16 .f32) (b : FVec F S1x16 .f32) : FVec F S100000x16 .f32 :=
  maximumf (addf s (broadcastInDim S100000x16 ![0, 1] bc b)) (broadcastInDim S100000x16 ![] bc0 (constant S_ .f32 0x00000000#32))

/-- The scalar zero broadcast over the whole array reads, at every entry, the scalar whose word is all zero bits. -/
theorem zero_apply (i : S100000x16.Idx) :
    (broadcastInDim S100000x16 ![] bc0 (constant S_ .f32 0x00000000#32) : FVec F S100000x16 .f32) i = Scalar.ofBits .f32 0x00000000#32 := rfl

/-- The printed index maps over the grid: windows 0 and 2 sit at block row `t`, window 1 stays at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of `G` of the two arrays as the region finds them. -/
theorem flushed_eq (c : Dev nD) (t : Fin cfg2.N) :
    (dat2 V c).flushed 2 t = ((cfg2.win 2).blk t).view.read (Elt F) (G (V c main_v37) (V c main_v38)) := by
  show (cfg2.win 2).cut (grid2.coords t) ((dat2 V c).after 2 t) = _
  rw [after2_2]
  unfold out2_2
  rw [View.canon_unit_zero hz]
  simp only [View.ld_unit_zero (S := S2000x16) hz, View.ld_unit_zero (S := S1x16) hz]
  obtain ⟨e0, e1, e2, e3, e4, e5⟩ := idx_facts t
  funext j
  obtain ⟨p, q, rfl⟩ : ∃ (p : Fin 2000) (q : Fin 16), j = ix2 p q := ⟨j 0, j 1, eq_ix2 j⟩
  show k2_pay1 (iblk2 V c 0 t) (iblk2 V c 1 t) (ix2 p q) = G (V c main_v37) (V c main_v38) (((cfg2.win 2).blk t).view.emb (ix2 p q))
  refine (pay_apply (iblk2 V c 0 t) (iblk2 V c 1 t) p q).trans ?_
  show FloatOps.maximumf (FloatOps.addf (V c main_v37 (((cfg2.win 0).blk t).view.emb (ix2 p q))) (V c main_v38 (((cfg2.win 1).blk t).view.emb (ix2 0 q))))
      (Scalar.ofBits .f32 0x00000000#32)
    = FloatOps.maximumf (FloatOps.addf (V c main_v37 (((cfg2.win 2).blk t).view.emb (ix2 p q))) (broadcastInDim S100000x16 ![0, 1] bc (V c main_v38 : FVec F S1x16 .f32) (((cfg2.win 2).blk t).view.emb (ix2 p q))))
      ((broadcastInDim S100000x16 ![] bc0 (constant S_ .f32 0x00000000#32) : FVec F S100000x16 .f32) (((cfg2.win 2).blk t).view.emb (ix2 p q)))
  have h0 : ((cfg2.win 0).blk t).view.emb (ix2 p q) = ((cfg2.win 2).blk t).view.emb (ix2 p q) := by
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 16 + 1 * q.val = win2_2.index t (1 : Fin 2) * 16 + 1 * q.val; omega
  have h1 : broadcastInDim S100000x16 ![0, 1] bc (V c main_v38 : FVec F S1x16 .f32) (((cfg2.win 2).blk t).view.emb (ix2 p q))
      = V c main_v38 (((cfg2.win 1).blk t).view.emb (ix2 0 q)) := by
    refine broadcastInDim_apply _ _ _ _ _ fun a => ?_
    match a with
    | ⟨0, _⟩ => show win2_1.index t (0 : Fin 2) * 1 + 1 * 0 = 0; omega
    | ⟨1, _⟩ => show win2_1.index t (1 : Fin 2) * 16 + 1 * q.val = win2_2.index t (1 : Fin 2) * 16 + 1 * q.val; omega
  rw [h0, h1, zero_apply]

/-- An index of the result array lies in point `t`'s block iff each coordinate lies in the block's range. -/
theorem mem_blk (t : Fin cfg2.N) (i : S100000x16.Idx) :
    i ∈ ((cfg2.win 2).blk t).view.set ↔ ∀ a : Fin 2, win2_2.index t a * S2000x16.size a ≤ (i a).val ∧ (i a).val < win2_2.index t a * S2000x16.size a + S2000x16.size a := by
  show i ∈ ((View.whole main_v39).slice (win2_2.rect t)).set ↔ _
  rw [View.set_slice_whole, Rect.mem_set_unit]
  exact Iff.rfl

/-- Row `r` of the result is covered by point `r / 2000`: the 50 blocks tile the array. -/
theorem cover (i : S100000x16.Idx) : ∃ t : Fin cfg2.N, (cfg2.win 2).flush t = true ∧ i ∈ ((cfg2.win 2).blk t).view.set := by
  have hi0 : (i 0).val < 100000 := (i 0).isLt
  have hi1 : (i 1).val < 16 := (i 1).isLt
  let t : Fin cfg2.N := ⟨(i 0).val / 2000, by show (i 0).val / 2000 < 50; omega⟩
  obtain ⟨e0, e1, e2, e3, e4, e5⟩ := idx_facts t
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; rw [e4]; show (i 0).val / 2000 * 2000 ≤ (i 0).val ∧ (i 0).val < (i 0).val / 2000 * 2000 + 2000; omega
  | ⟨1, _⟩ => show win2_2.index t (1 : Fin 2) * 16 ≤ (i 1).val ∧ (i 1).val < win2_2.index t (1 : Fin 2) * 16 + 16; omega

/-- The array region 2 leaves: the scattered sums plus the bias row, cut below at zero, at every row. -/
theorem val (c : Dev nD) : (dat2 V c).arrAt 2 cfg2.N = G (V c main_v37) (V c main_v38) :=
  (dat2 V c).arrAt_eq_of_cover 2 (G (V c main_v37) (V c main_v38)) (fun t _ => flushed_eq V c t) cover

end Cert.KernelIdeal.Region2

end
-- ==== Proof.Region3.lean ====
/-
  Region 3 (the second dense layer), read as ONE whole-array function at any contents `V` the region is entered
  with, at the ideal values (extended reals: a change of float format is the identity, and a matrix product into a zero
  accumulator is the plain finite sum). The grid has 50 points; point `t` fetches rows `[2000 t, 2000 t + 2000)` of the
  [100000, 16] array of activations (window 0), the whole [16, 32] weight matrix (window 1, the same block at every point)
  and writes back the same rows of the [100000, 32] result (window 2). Its body multiplies the block of rows by the
  weights: entry (p, j) of the block is the sum over k of x (2000 t + p, k) * w (k, j). A row of a matrix product depends
  on that row of the left operand only, so what point `t` writes back is block `t` of `G x w = x · w`, the blocks tile
  the result array, and after the run the array holds `G` of the two arrays as the region found them.
-/
import proofs.«424739_j22832046145825_2_alg».proof.Proof.Gen.KernelIdeal.Frame
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember

set_option maxRecDepth 16384

noncomputable section

namespace Cert.KernelIdeal.Region3

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The zero offsets of a whole-block rectangle, in the printed spelling. -/
theorem hz : (![0, 0] : Fin 2 → Nat) = fun _ => 0 := funext fun a => by fin_cases a <;> rfl

/-- The block's dimension numbers are the plain ones: rows × contraction times contraction × columns. -/
theorem dot_eq_plain : dot_S2000x16_S16x32_S2000x32_1_0_0_1_n_n = DotDims.plain 2000 16 32 := rfl

/-- The body's stored value at row `p`, column `j` of the block: the format changes are the identity and the
    accumulator is zero, so it is the sum over the contracted coordinate of the products of the two blocks' entries. -/
theorem pay_apply (x0 : Vec Ideal S2000x16 .f32) (w : Vec Ideal S16x32 .f32) (p : Fin 2000) (j : Fin 32) :
    k3_pay1 x0 w (ix2 p j) = ∑ k : Fin 16, x0 (ix2 p k) * w (ix2 k j) := by
  unfold k3_pay1
  rw [shapeCast_self]
  show matmul (F := Ideal) dot_S2000x16_S16x32_S2000x32_1_0_0_1_n_n none (truncf (F := Ideal) .bf16 (x0 : FVec Ideal S2000x16 .f32) bitsLt_bf16_f32)
      (truncf (F := Ideal) .bf16 (w : FVec Ideal S16x32 .f32) bitsLt_bf16_f32) (constant S2000x32 .f32 0x00000000#32) (ix2 p j) = _
  rw [matmul_zero_eq_dotGeneral, dot_eq_plain]
  exact StackMember.dotGeneral_plain_apply none _ _ p j

/-- The whole arrays' dimension numbers: contract axis 1 of the activations with axis 0 of the weights. -/
def dotW : DotDims S100000x16 S16x32 S100000x32 where
  lhsContracting := [1]
  rhsContracting := [0]
  lhsNonContracting := [0]
  rhsNonContracting := [1]
  lhsBatch := []
  rhsBatch := []
  wf := by decide

/-- The whole-array function: the matrix product of the activations by the weights. -/
def G (x : FVec Ideal S100000x16 .f32) (w : FVec Ideal S16x32 .f32) : FVec Ideal S100000x32 .f32 := Host.dotGeneral dotW none x w

/-- The whole arrays' dimension numbers are the plain ones too. -/
theorem dotW_eq_plain : dotW = DotDims.plain 100000 16 32 := rfl

/-- The whole product at row `r`, column `j`: the sum over the contracted coordinate of row `r` of the activations
    times column `j` of the weights. -/
theorem G_apply (x : FVec Ideal S100000x16 .f32) (w : FVec Ideal S16x32 .f32) (r : Fin 100000) (j : Fin 32) :
    G x w (ix2 r j) = ∑ k : Fin 16, x (ix2 r k) * w (ix2 k j) := by
  unfold G
  rw [dotW_eq_plain]
  exact StackMember.dotGeneral_plain_apply none x w r j

/-- The printed index maps over the grid: windows 0 and 2 sit at block row `t`, window 1 stays at block (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of `G` of the two arrays as the region finds them: row `p` of the block is
    row `2000 t + p` of the activations, and the weights' block is the whole matrix. -/
theorem flushed_eq (c : Dev nD) (t : Fin cfg3.N) :
    (dat3 V c).flushed 2 t = ((cfg3.win 2).blk t).view.read (Elt Ideal) (G (V c main_v39) (V c main_arg4)) := by
  show (cfg3.win 2).cut (grid3.coords t) ((dat3 V c).after 2 t) = _
  rw [after3_2]
  unfold out3_2
  rw [View.canon_unit_zero hz]
  simp only [View.ld_unit_zero (S := S2000x16) hz, View.ld_unit_zero (S := S16x32) hz]
  obtain ⟨e0, e1, e2, e3, e4, e5⟩ := idx_facts t
  have ht : t.val < 50 := t.isLt
  funext i
  obtain ⟨p, q, rfl⟩ : ∃ (p : Fin 2000) (q : Fin 32), i = ix2 p q := ⟨i 0, i 1, eq_ix2 i⟩
  have hr : t.val * 2000 + p.val < 100000 := by have := p.isLt; omega
  show k3_pay1 (iblk3 V c 0 t) (iblk3 V c 1 t) (ix2 p q) = G (V c main_v39) (V c main_arg4) (((cfg3.win 2).blk t).view.emb (ix2 p q))
  refine (pay_apply (iblk3 V c 0 t) (iblk3 V c 1 t) p q).trans ?_
  have h2 : ((cfg3.win 2).blk t).view.emb (ix2 p q) = ix2 (⟨t.val * 2000 + p.val, hr⟩ : Fin 100000) q := by
    funext a; apply Fin.ext
    match a with
    | ⟨0, _⟩ => show win3_2.index t (0 : Fin 2) * 2000 + 1 * p.val = t.val * 2000 + p.val; omega
    | ⟨1, _⟩ => show win3_2.index t (1 : Fin 2) * 32 + 1 * q.val = q.val; omega
  rw [h2, G_apply]
  refine Finset.sum_congr rfl fun k _ => ?_
  have h0 : ((cfg3.win 0).blk t).view.emb (ix2 p k) = ix2 (⟨t.val * 2000 + p.val, hr⟩ : Fin 100000) k := by
    funext a; apply Fin.ext
    match a with
    | ⟨0, _⟩ => show win3_0.index t (0 : Fin 2) * 2000 + 1 * p.val = t.val * 2000 + p.val; omega
    | ⟨1, _⟩ => show win3_0.index t (1 : Fin 2) * 16 + 1 * k.val = k.val; omega
  have h1 : ((cfg3.win 1).blk t).view.emb (ix2 k q) = ix2 k q := by
    funext a; apply Fin.ext
    match a with
    | ⟨0, _⟩ => show win3_1.index t (0 : Fin 2) * 16 + 1 * k.val = k.val; omega
    | ⟨1, _⟩ => show win3_1.index t (1 : Fin 2) * 32 + 1 * q.val = q.val; omega
  have a0 : iblk3 V c 0 t (ix2 p k) = (V c main_v39 : FVec Ideal S100000x16 .f32) (ix2 (⟨t.val * 2000 + p.val, hr⟩ : Fin 100000) k) := by
    show (V c main_v39 : FVec Ideal S100000x16 .f32) (((cfg3.win 0).blk t).view.emb (ix2 p k)) = _
    rw [h0]
  have a1 : iblk3 V c 1 t (ix2 k q) = (V c main_arg4 : FVec Ideal S16x32 .f32) (ix2 k q) := by
    show (V c main_arg4 : FVec Ideal S16x32 .f32) (((cfg3.win 1).blk t).view.emb (ix2 k q)) = _
    rw [h1]
  exact congrArg₂ (fun a b : Ideal .f32 => a * b) a0 a1

/-- An index of the result array lies in point `t`'s block iff each coordinate lies in the block's range. -/
theorem mem_blk (t : Fin cfg3.N) (i : S100000x32.Idx) :
    i ∈ ((cfg3.win 2).blk t).view.set ↔ ∀ a : Fin 2, win3_2.index t a * S2000x32.size a ≤ (i a).val ∧ (i a).val < win3_2.index t a * S2000x32.size a + S2000x32.size a := by
  show i ∈ ((View.whole main_v40).slice (win3_2.rect t)).set ↔ _
  rw [View.set_slice_whole, Rect.mem_set_unit]
  exact Iff.rfl

/-- Row `r` of the result is covered by point `r / 2000`: the 50 blocks tile the array. -/
theorem cover (i : S100000x32.Idx) : ∃ t : Fin cfg3.N, (cfg3.win 2).flush t = true ∧ i ∈ ((cfg3.win 2).blk t).view.set := by
  have hi0 : (i 0).val < 100000 := (i 0).isLt
  have hi1 : (i 1).val < 32 := (i 1).isLt
  let t : Fin cfg3.N := ⟨(i 0).val / 2000, by show (i 0).val / 2000 < 50; omega⟩
  obtain ⟨e0, e1, e2, e3, e4, e5⟩ := idx_facts t
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; rw [e4]; show (i 0).val / 2000 * 2000 ≤ (i 0).val ∧ (i 0).val < (i 0).val / 2000 * 2000 + 2000; omega
  | ⟨1, _⟩ => show win3_2.index t (1 : Fin 2) * 32 ≤ (i 1).val ∧ (i 1).val < win3_2.index t (1 : Fin 2) * 32 + 32; omega

/-- The array region 3 leaves: the matrix product of the activations by the weights, at every row. -/
theorem val (c : Dev nD) : (dat3 V c).arrAt 2 cfg3.N = G (V c main_v39) (V c main_arg4) :=
  (dat3 V c).arrAt_eq_of_cover 2 (G (V c main_v39) (V c main_arg4)) (fun t _ => flushed_eq V c t) cover

end Cert.KernelIdeal.Region3

end
-- ==== Proof.Region4.lean ====
/- Region 4 of @main laid out from the hand text of region 1 (proof/Proof/Region1.lean: the same scaling kernel at width 16) by substituting the
   region number, the buffer names and the width 16 -> 32; the substitutions are listed in the script. -/
/-
  Region 4 (the per-edge scaling at width 32), read as ONE whole-array function at any contents `V` the region is
  entered with. The grid has 825 points; point `t` fetches rows `[4000 t, 4000 t + 4000)` of the [3300000, 32] array
  of gathered messages (window 0), the same rows of the [3300000, 1] column of edge weights (window 1) and writes
  back the same rows of the result (window 2). Its body multiplies every row of the block by that row's weight. So
  what point `t` writes back is block `t` of `G messages weights = messages * (weights broadcast along the columns)`,
  the blocks tile the result array, and after the run the array holds `G` of the two arrays as the region found them.
-/
import proofs.«424739_j22832046145825_2_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Region4

open Cert.KernelIdeal Cert.KernelIdeal.Gen
open Idealize.ShloMosaic Idealize.ShloMosaic.TcCoe Idealize.SL.Sem Idealize.ShloMosaic.ValueIdx
open Idealize.ShloMosaic.Pipeline (Dat Cfg Window)

variable {F : FTy → Type} [FloatOps F]
variable (V : (c : Dev nD) → (b : Ref sig .tc) → Buf (Elt F) ((c : Thread nD τ).loc b))

/-- The zero offsets of a whole-block rectangle, in the printed spelling. -/
theorem hz : (![0, 0] : Fin 2 → Nat) = fun _ => 0 := funext fun a => by fin_cases a <;> rfl

/-- A [4000, 1] column broadcast to [4000, 32] reads, at row `p` and any column, the column's entry at row `p`:
    axis 0 has more than one entry and is kept, axis 1 is the unit axis and reads its only entry. -/
theorem col_apply (x1 : Vec F S4000x1 .f32) (p : Fin 4000) (q : Fin 32) :
    broadcastTo S4000x32 x1 broadcasts_S4000x1_S4000x32 (ix2 p q) = x1 (ix2 p (0 : Fin 1)) := by
  refine broadcastTo_apply x1 broadcasts_S4000x1_S4000x32 (ix2 p q) (ix2 p (0 : Fin 1)) fun a => ?_
  match a with
  | ⟨0, _⟩ => rfl
  | ⟨1, _⟩ => rfl

/-- The body's stored value at row `p`, column `q` of the block: the block's entry times the weight of row `p`. -/
theorem pay_apply (x0 : Vec F S4000x32 .f32) (x1 : Vec F S4000x1 .f32) (p : Fin 4000) (q : Fin 32) :
    k4_pay1 x0 x1 (ix2 p q) = FloatOps.mulf (x0 (ix2 p q)) (x1 (ix2 p (0 : Fin 1))) := by
  unfold k4_pay1
  rw [shapeCast_self, shapeCast_self]
  exact congrArg (FloatOps.mulf (x0 (ix2 p q))) (col_apply x1 p q)

/-- A [3300000, 1] column broadcasts over [3300000, 32] along both axes in place. -/
theorem bc : S3300000x1.BroadcastsInDim S3300000x32 (![0, 1] : Fin 2 → Fin 2) := by decide

/-- The whole-array function: every row of `g` times that row's entry of the column `n`. -/
def G (g : FVec F S3300000x32 .f32) (n : FVec F S3300000x1 .f32) : FVec F S3300000x32 .f32 :=
  mulf g (broadcastInDim S3300000x32 ![0, 1] bc n)

/-- The printed index maps over the grid: all three windows sit at block row `t`, block column 0. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of `G` of the two arrays as the region finds them. -/
theorem flushed_eq (c : Dev nD) (t : Fin cfg4.N) :
    (dat4 V c).flushed 2 t = ((cfg4.win 2).blk t).view.read (Elt F) (G (V c main_v41) (V c main_v42)) := by
  show (cfg4.win 2).cut (grid4.coords t) ((dat4 V c).after 2 t) = _
  rw [after4_2]
  unfold out4_2
  rw [View.canon_unit_zero hz]
  simp only [View.ld_unit_zero (S := S4000x32) hz, View.ld_unit_zero (S := S4000x1) hz]
  obtain ⟨e0, e1, e2, e3, e4, e5⟩ := idx_facts t
  funext j
  obtain ⟨p, q, rfl⟩ : ∃ (p : Fin 4000) (q : Fin 32), j = ix2 p q := ⟨j 0, j 1, eq_ix2 j⟩
  show k4_pay1 (iblk4 V c 0 t) (iblk4 V c 1 t) (ix2 p q) = G (V c main_v41) (V c main_v42) (((cfg4.win 2).blk t).view.emb (ix2 p q))
  refine (pay_apply (iblk4 V c 0 t) (iblk4 V c 1 t) p q).trans ?_
  show FloatOps.mulf (V c main_v41 (((cfg4.win 0).blk t).view.emb (ix2 p q))) (V c main_v42 (((cfg4.win 1).blk t).view.emb (ix2 p (0 : Fin 1))))
    = FloatOps.mulf (V c main_v41 (((cfg4.win 2).blk t).view.emb (ix2 p q))) (broadcastInDim S3300000x32 ![0, 1] bc (V c main_v42 : FVec F S3300000x1 .f32) (((cfg4.win 2).blk t).view.emb (ix2 p q)))
  have h0 : ((cfg4.win 0).blk t).view.emb (ix2 p q) = ((cfg4.win 2).blk t).view.emb (ix2 p q) := by
    funext a; apply Fin.ext
    match a with
    | ⟨0, _⟩ => show win4_0.index t (0 : Fin 2) * 4000 + 1 * p.val = win4_2.index t (0 : Fin 2) * 4000 + 1 * p.val; omega
    | ⟨1, _⟩ => show win4_0.index t (1 : Fin 2) * 32 + 1 * q.val = win4_2.index t (1 : Fin 2) * 32 + 1 * q.val; omega
  have h1 : broadcastInDim S3300000x32 ![0, 1] bc (V c main_v42 : FVec F S3300000x1 .f32) (((cfg4.win 2).blk t).view.emb (ix2 p q))
      = V c main_v42 (((cfg4.win 1).blk t).view.emb (ix2 p (0 : Fin 1))) := by
    refine broadcastInDim_apply _ _ _ _ _ fun a => ?_
    match a with
    | ⟨0, _⟩ => show win4_1.index t (0 : Fin 2) * 4000 + 1 * p.val = win4_2.index t (0 : Fin 2) * 4000 + 1 * p.val; omega
    | ⟨1, _⟩ => show win4_1.index t (1 : Fin 2) * 1 + 1 * 0 = 0; omega
  rw [h0, h1]

/-- An index of the result array lies in point `t`'s block iff each coordinate lies in the block's range. -/
theorem mem_blk (t : Fin cfg4.N) (i : S3300000x32.Idx) :
    i ∈ ((cfg4.win 2).blk t).view.set ↔ ∀ a : Fin 2, win4_2.index t a * S4000x32.size a ≤ (i a).val ∧ (i a).val < win4_2.index t a * S4000x32.size a + S4000x32.size a := by
  show i ∈ ((View.whole main_v43).slice (win4_2.rect t)).set ↔ _
  rw [View.set_slice_whole, Rect.mem_set_unit]
  exact Iff.rfl

/-- Row `r` of the result is covered by point `r / 4000`: the 825 blocks tile the array. -/
theorem cover (i : S3300000x32.Idx) : ∃ t : Fin cfg4.N, (cfg4.win 2).flush t = true ∧ i ∈ ((cfg4.win 2).blk t).view.set := by
  have hi0 : (i 0).val < 3300000 := (i 0).isLt
  have hi1 : (i 1).val < 32 := (i 1).isLt
  let t : Fin cfg4.N := ⟨(i 0).val / 4000, by show (i 0).val / 4000 < 825; omega⟩
  obtain ⟨e0, e1, e2, e3, e4, e5⟩ := idx_facts t
  refine ⟨t, flush4_2 t, ?_⟩
  rw [mem_blk]
  intro a
  match a with
  | ⟨0, _⟩ => show win4_2.index t (0 : Fin 2) * 4000 ≤ (i 0).val ∧ (i 0).val < win4_2.index t (0 : Fin 2) * 4000 + 4000; rw [e4]; show (i 0).val / 4000 * 4000 ≤ (i 0).val ∧ (i 0).val < (i 0).val / 4000 * 4000 + 4000; omega
  | ⟨1, _⟩ => show win4_2.index t (1 : Fin 2) * 32 ≤ (i 1).val ∧ (i 1).val < win4_2.index t (1 : Fin 2) * 32 + 32; omega

/-- The array region 4 leaves: every gathered message times its edge's weight, at every row. -/
theorem val (c : Dev nD) : (dat4 V c).arrAt 2 cfg4.N = G (V c main_v41) (V c main_v42) :=
  (dat4 V c).arrAt_eq_of_cover 2 (G (V c main_v41) (V c main_v42)) (fun t _ => flushed_eq V c t) cover

end Cert.KernelIdeal.Region4

end
-- ==== Proof.Region5.lean ====
/-
  Region 5 (the last bias add), read as ONE whole-array function at any contents `V` the region is entered with.
  The grid has 50 points; point `t` fetches rows `[2000 t, 2000 t + 2000)` of the [100000, 32] array of scattered
  sums (window 0), the one [1, 32] bias row (window 1, the same block at every point) and writes back the same
  rows of the result (window 2). Its body adds the bias row to every row of the block. So what point `t` writes
  back is block `t` of `G sums bias = sums + (bias broadcast along the rows)`, the blocks tile the result array,
  and after the run the array holds `G` of the two arrays as the region found them.
-/
import proofs.«424739_j22832046145825_2_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Region5

open Cert.KernelIdeal Cert.KernelIdeal.Gen
open Idealize.ShloMosaic Idealize.ShloMosaic.TcCoe Idealize.SL.Sem Idealize.ShloMosaic.ValueIdx
open Idealize.ShloMosaic.Pipeline (Dat Cfg Window)

variable {F : FTy → Type} [FloatOps F]
variable (V : (c : Dev nD) → (b : Ref sig .tc) → Buf (Elt F) ((c : Thread nD τ).loc b))

/-- The zero offsets of a whole-block rectangle, in the printed spelling. -/
theorem hz : (![0, 0] : Fin 2 → Nat) = fun _ => 0 := funext fun a => by fin_cases a <;> rfl

/-- The body's stored value at row `p`, column `q` of the block: the block's entry plus the bias row's entry at `q`. -/
theorem pay_apply (x0 : Vec F S2000x32 .f32) (x1 : Vec F S1x32 .f32) (p : Fin 2000) (q : Fin 32) :
    k5_pay1 x0 x1 (ix2 p q) = FloatOps.addf (x0 (ix2 p q)) (x1 (ix2 0 q)) := by
  unfold k5_pay1
  rw [shapeCast_self, shapeCast_self]
  exact congrArg (FloatOps.addf (x0 (ix2 p q))) (broadcastTo_1b_ab_apply x1 broadcasts_S1x32_S2000x32 p q)

/-- A [1, 32] row broadcasts over [100000, 32] along both axes in place. -/
theorem bc : S1x32.BroadcastsInDim S100000x32 (![0, 1] : Fin 2 → Fin 2) := by decide

/-- The whole-array function: every row of `a` plus the row `b`. -/
def G (a : FVec F S100000x32 .f32) (b : FVec F S1x32 .f32) : FVec F S100000x32 .f32 :=
  addf a (broadcastInDim S100000x32 ![0, 1] bc b)

/-- The printed index maps over the grid: windows 0 and 2 sit at block row `t`, window 1 stays at block (0, 0). -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of `G` of the two arrays as the region finds them. -/
theorem flushed_eq (c : Dev nD) (t : Fin cfg5.N) :
    (dat5 V c).flushed 2 t = ((cfg5.win 2).blk t).view.read (Elt F) (G (V c main_v46) (V c main_v47)) := by
  show (cfg5.win 2).cut (grid5.coords t) ((dat5 V c).after 2 t) = _
  rw [after5_2]
  unfold out5_2
  rw [View.canon_unit_zero hz]
  simp only [View.ld_unit_zero (S := S2000x32) hz, View.ld_unit_zero (S := S1x32) hz]
  obtain ⟨e0, e1, e2, e3, e4, e5⟩ := idx_facts t
  funext j
  obtain ⟨p, q, rfl⟩ : ∃ (p : Fin 2000) (q : Fin 32), j = ix2 p q := ⟨j 0, j 1, eq_ix2 j⟩
  show k5_pay1 (iblk5 V c 0 t) (iblk5 V c 1 t) (ix2 p q) = G (V c main_v46) (V c main_v47) (((cfg5.win 2).blk t).view.emb (ix2 p q))
  refine (pay_apply (iblk5 V c 0 t) (iblk5 V c 1 t) p q).trans ?_
  show FloatOps.addf (V c main_v46 (((cfg5.win 0).blk t).view.emb (ix2 p q))) (V c main_v47 (((cfg5.win 1).blk t).view.emb (ix2 0 q)))
    = FloatOps.addf (V c main_v46 (((cfg5.win 2).blk t).view.emb (ix2 p q))) (broadcastInDim S100000x32 ![0, 1] bc (V c main_v47 : FVec F S1x32 .f32) (((cfg5.win 2).blk t).view.emb (ix2 p q)))
  have h0 : ((cfg5.win 0).blk t).view.emb (ix2 p q) = ((cfg5.win 2).blk t).view.emb (ix2 p q) := by
    funext a; apply Fin.ext
    match a with
    | ⟨0, _⟩ => show win5_0.index t (0 : Fin 2) * 2000 + 1 * p.val = win5_2.index t (0 : Fin 2) * 2000 + 1 * p.val; omega
    | ⟨1, _⟩ => show win5_0.index t (1 : Fin 2) * 32 + 1 * q.val = win5_2.index t (1 : Fin 2) * 32 + 1 * q.val; omega
  have h1 : broadcastInDim S100000x32 ![0, 1] bc (V c main_v47 : FVec F S1x32 .f32) (((cfg5.win 2).blk t).view.emb (ix2 p q))
      = V c main_v47 (((cfg5.win 1).blk t).view.emb (ix2 0 q)) := by
    refine broadcastInDim_apply _ _ _ _ _ fun a => ?_
    match a with
    | ⟨0, _⟩ => show win5_1.index t (0 : Fin 2) * 1 + 1 * 0 = 0; omega
    | ⟨1, _⟩ => show win5_1.index t (1 : Fin 2) * 32 + 1 * q.val = win5_2.index t (1 : Fin 2) * 32 + 1 * q.val; omega
  rw [h0, h1]

/-- An index of the result array lies in point `t`'s block iff each coordinate lies in the block's range. -/
theorem mem_blk (t : Fin cfg5.N) (i : S100000x32.Idx) :
    i ∈ ((cfg5.win 2).blk t).view.set ↔ ∀ a : Fin 2, win5_2.index t a * S2000x32.size a ≤ (i a).val ∧ (i a).val < win5_2.index t a * S2000x32.size a + S2000x32.size a := by
  show i ∈ ((View.whole main_v48).slice (win5_2.rect t)).set ↔ _
  rw [View.set_slice_whole, Rect.mem_set_unit]
  exact Iff.rfl

/-- Row `r` of the result is covered by point `r / 2000`: the 50 blocks tile the array. -/
theorem cover (i : S100000x32.Idx) : ∃ t : Fin cfg5.N, (cfg5.win 2).flush t = true ∧ i ∈ ((cfg5.win 2).blk t).view.set := by
  have hi0 : (i 0).val < 100000 := (i 0).isLt
  have hi1 : (i 1).val < 32 := (i 1).isLt
  let t : Fin cfg5.N := ⟨(i 0).val / 2000, by show (i 0).val / 2000 < 50; omega⟩
  obtain ⟨e0, e1, e2, e3, e4, e5⟩ := idx_facts t
  refine ⟨t, flush5_2 t, ?_⟩
  rw [mem_blk]
  intro a
  match a with
  | ⟨0, _⟩ => show win5_2.index t (0 : Fin 2) * 2000 ≤ (i 0).val ∧ (i 0).val < win5_2.index t (0 : Fin 2) * 2000 + 2000; rw [e4]; show (i 0).val / 2000 * 2000 ≤ (i 0).val ∧ (i 0).val < (i 0).val / 2000 * 2000 + 2000; omega
  | ⟨1, _⟩ => show win5_2.index t (1 : Fin 2) * 32 ≤ (i 1).val ∧ (i 1).val < win5_2.index t (1 : Fin 2) * 32 + 32; omega

/-- The array region 5 leaves: the scattered sums plus the bias row, at every row. -/
theorem val (c : Dev nD) : (dat5 V c).arrAt 2 cfg5.N = G (V c main_v46) (V c main_v47) :=
  (dat5 V c).arrAt_eq_of_cover 2 (G (V c main_v46) (V c main_v47)) (fun t _ => flushed_eq V c t) cover

end Cert.KernelIdeal.Region5

end
-- ==== Proof.TakeFill.lean ====
/-
  Fill-mode row take on 32-bit index words.

  A row take in "fill" mode is printed as three steps on the index words: a negative word is wrapped by adding the
  number of rows N = 100000; the rows are gathered at the wrapped words; and the gathered array is kept where the wrapped
  word lies in [0, N - 1] and replaced by a fill constant elsewhere. When every index word already lies in [0, N) the
  wrap is the identity, the range test holds at every edge, and the final select is the gathered array itself.
-/
import Idealize.ShloMosaic.PureOps
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.ReduceAll

noncomputable section

open Idealize.ShloMosaic Idealize.ShloMosaic.ValueIdx

namespace Cert.TakeFill

/-- The edge list: 3300000 entries. -/
abbrev S_E : Shape := ⟨1, ![3300000]⟩
/-- The edge list as a column. -/
abbrev S_E1 : Shape := ⟨2, ![3300000, 1]⟩
/-- One gathered row of width `n` per edge. -/
abbrev S_En (n : Nat) : Shape := ⟨2, ![3300000, n]⟩
/-- The scalar shape. -/
abbrev S_ : Shape := ⟨0, ![]⟩
/-- A one-entry vector. -/
abbrev S1 : Shape := ⟨1, ![1]⟩
/-- A one-by-one matrix. -/
abbrev S1x1 : Shape := ⟨2, ![1, 1]⟩

/-! ## Words -/

/-- A word that reads non-negative as a signed integer is not below zero: the signed "less than 0" test is the bit 0. -/
theorem slt_zero_of_nonneg (a : BitVec 32) (h : 0 ≤ a.toInt) : IntOp.cmpi .slt a 0#32 = 0#1 := by
  have h0 : (0#32 : BitVec 32).toInt = 0 := by decide
  have hb : a.slt 0#32 = false := by
    simp only [BitVec.slt, h0, decide_eq_false_iff_not]; omega
  show BitVec.ofBool (a.slt 0#32) = 0#1
  rw [hb]; rfl

/-- The wrap of a non-negative word (add N where the word is negative) is the word. -/
theorem wrap_word (a : BitVec 32) (h : 0 ≤ a.toInt) :
    Scalar.select (IntOp.cmpi .slt a 0#32) (IntOp.addi a 100000#32) a = a := by
  rw [slt_zero_of_nonneg a h, select_zero]

/-- A word that reads non-negative passes the signed "at least 0" test. -/
theorem sge_zero_of_nonneg (a : BitVec 32) (h : 0 ≤ a.toInt) : IntOp.cmpi .sge a 0#32 = 1#1 := by
  have h0 : (0#32 : BitVec 32).toInt = 0 := by decide
  have hb : (0#32 : BitVec 32).sle a = true := by
    simp only [BitVec.sle, h0, decide_eq_true_eq]; exact h
  show BitVec.ofBool ((0#32 : BitVec 32).sle a) = 1#1
  rw [hb]; rfl

/-- A word that reads at most N - 1 = 99999 passes the signed "at most 99999" test. -/
theorem sle_top_of_le (a : BitVec 32) (h : a.toInt ≤ 99999) : IntOp.cmpi .sle a 99999#32 = 1#1 := by
  have h0 : (99999#32 : BitVec 32).toInt = 99999 := by decide
  have hb : a.sle 99999#32 = true := by
    simp only [BitVec.sle, h0, decide_eq_true_eq]; exact h
  show BitVec.ofBool (a.sle 99999#32) = 1#1
  rw [hb]; rfl

/-- A left fold by `and` over one-bit words that starts at 1 and meets only 1s ends at 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hl => by
    refine foldl_andi_of_all f l _ ?_ fun n hn => hl n (List.mem_cons_of_mem _ hn)
    exact IntOp.andi_eq_one.2 ⟨hi, hl a (List.mem_cons_self ..)⟩

/-! ## The wrapped index -/

/-- The wrapped index of an in-range index is itself, hence in [0, N-1]. -/
theorem wrap_range (s : IVec S_E 32) (hs : ∀ e : Fin 3300000, 0 ≤ (s (ix1 e)).toInt ∧ (s (ix1 e)).toInt < 100000)
    (pb : S_.BroadcastsInDim S_E (![] : Fin 0 → Fin 1)) (pc : S_E.BroadcastsInDim S_E1 (![0] : Fin 1 → Fin 2)) (e : Fin 3300000) :
    0 ≤ ((broadcastInDim S_E1 ![0] pc (select (cmpi .slt s (broadcastInDim S_E ![] pb (constantI S_ 32 0#32))) (addi s (broadcastInDim S_E ![] pb (constantI S_ 32 100000#32))) s)) (ix2 e 0)).toInt
    ∧ ((broadcastInDim S_E1 ![0] pc (select (cmpi .slt s (broadcastInDim S_E ![] pb (constantI S_ 32 0#32))) (addi s (broadcastInDim S_E ![] pb (constantI S_ 32 100000#32))) s)) (ix2 e 0)).toInt ≤ 99999 := by
  -- the column entry (e, 0) reads the wrapped list at e, which is the word s e itself
  have key : (broadcastInDim S_E1 ![0] pc (select (cmpi .slt s (broadcastInDim S_E ![] pb (constantI S_ 32 0#32))) (addi s (broadcastInDim S_E ![] pb (constantI S_ 32 100000#32))) s)) (ix2 e 0) = s (ix1 e) := by
    refine (broadcastInDim_apply ![0] pc _ (ix2 e 0) (ix1 e) ?_).trans ?_
    · intro a
      match a with
      | ⟨0, _⟩ =>
        show e.val = if (3300000 : Nat) = 1 then 0 else e.val
        rw [if_neg (by decide)]
    · exact wrap_word _ (hs e).1
  rw [key]
  have := hs e
  omega

/-! ## The range mask -/

/-- The fill-mode mask of in-range indices is all ones: the select keeps the gathered array. -/
theorem mask_select {n : Nat} {α : Type} (w : IVec S_E1 32) (hw : ∀ e : Fin 3300000, 0 ≤ (w (ix2 e 0)).toInt ∧ (w (ix2 e 0)).toInt ≤ 99999)
    (g nanv : (S_En n).Idx → α)
    (p1 : S_E.BroadcastsInDim (S_En n) (![0] : Fin 1 → Fin 2)) (p2 : S_.BroadcastsInDim S_E1 (![] : Fin 0 → Fin 2))
    (p3 : S1x1.BroadcastsInDim S_E1 (![0, 1] : Fin 2 → Fin 2)) (p4 : S1.BroadcastsInDim S1x1 (![1] : Fin 1 → Fin 2))
    (p5 : S_E1.ReducesTo [1] S_E) (p6 : 0 < S_.numel) :
    select (broadcastInDim (S_En n) ![0] p1 (Host.reduce IntOp.andi (andi (cmpi .sge w (broadcastInDim S_E1 ![] p2 (constantI S_ 32 0#32))) (cmpi .sle w (broadcastInDim S_E1 ![0, 1] p3 (broadcastInDim S1x1 ![1] p4 (constantI S1 32 99999#32))))) (constantI S_ 1 1#1) p5 p6)) g nanv = g := by
  -- every entry of the two-sided range test is the bit 1
  have hM : ∀ i : S_E1.Idx, (andi (cmpi .sge w (broadcastInDim S_E1 ![] p2 (constantI S_ 32 0#32))) (cmpi .sle w (broadcastInDim S_E1 ![0, 1] p3 (broadcastInDim S1x1 ![1] p4 (constantI S1 32 99999#32))))) i = 1#1 := by
    intro i
    obtain ⟨e, q, rfl⟩ : ∃ (e : Fin 3300000) (q : Fin 1), i = ix2 e q := ⟨i 0, i 1, eq_ix2 i⟩
    obtain rfl : q = 0 := Subsingleton.elim _ _
    show IntOp.andi (IntOp.cmpi .sge (w (ix2 e 0)) 0#32) (IntOp.cmpi .sle (w (ix2 e 0)) 99999#32) = 1#1
    exact IntOp.andi_eq_one.2 ⟨sge_zero_of_nonneg _ (hw e).1, sle_top_of_le _ (hw e).2⟩
  -- so its reduction by `and` along the unit axis, from 1, is 1 at every edge
  have hR : ∀ k : S_E.Idx, Host.reduce IntOp.andi (andi (cmpi .sge w (broadcastInDim S_E1 ![] p2 (constantI S_ 32 0#32))) (cmpi .sle w (broadcastInDim S_E1 ![0, 1] p3 (broadcastInDim S1x1 ![1] p4 (constantI S1 32 99999#32))))) (constantI S_ 1 1#1) p5 p6 k = 1#1 := by
    intro k
    rw [Host.reduce_eq_foldl]
    exact foldl_andi_of_all _ _ _ rfl fun i _ => hM i
  -- and the select on a mask of ones is its first operand
  funext j
  rw [select_apply]
  have hj : (broadcastInDim (S_En n) ![0] p1 (Host.reduce IntOp.andi (andi (cmpi .sge w (broadcastInDim S_E1 ![] p2 (constantI S_ 32 0#32))) (cmpi .sle w (broadcastInDim S_E1 ![0, 1] p3 (broadcastInDim S1x1 ![1] p4 (constantI S1 32 99999#32))))) (constantI S_ 1 1#1) p5 p6)) j = 1#1 := hR _
  rw [hj, select_one]

end Cert.TakeFill
-- ==== Proof.SrcRange.lean ====
/-
  The source indices of the edge list lie in [0, N), N = 100000.

  The precondition's last conjunct is the "all" (a reduction by `and` from the bit 1) of the two-sided test
  (src >= 0) and (src < N) over src = row 0 of the [2, 3200000] edge list. Read back entry by entry it gives the range
  of every source index. The source list the program gathers with is that row followed by the self loops 0, 1, …, N - 1
  (an iota of length N), a concatenation of 3300000 entries; each of its entries is in [0, N) too.
-/
import Idealize.ShloMosaic.PureOps
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.ReduceAll
import proofs.«424739_j22832046145825_2_alg».proof.Proof.Gen.Pre_finite_inputs

noncomputable section

open Idealize.ShloMosaic Idealize.ShloMosaic.ValueIdx

namespace Cert.SrcRange

/-! ## Words -/

/-- A word that passes the signed "at least 0" test reads non-negative. -/
theorem nonneg_of_sge_zero (a : BitVec 32) (h : IntOp.cmpi .sge a 0#32 = 1#1) : 0 ≤ a.toInt := by
  have h' : BitVec.ofBool ((0#32 : BitVec 32).sle a) = 1#1 := h
  have hb : (0#32 : BitVec 32).sle a = true := (StableHlo.Predicate.ofBool_eq_one_iff _).1 h'
  have h0 : (0#32 : BitVec 32).toInt = 0 := by decide
  simp only [BitVec.sle, h0, decide_eq_true_eq] at hb
  exact hb

/-- A word that passes the signed "below N" test reads below N = 100000. -/
theorem lt_of_slt_top (a : BitVec 32) (h : IntOp.cmpi .slt a 100000#32 = 1#1) : a.toInt < 100000 := by
  have h' : BitVec.ofBool (a.slt 100000#32) = 1#1 := h
  have hb : a.slt 100000#32 = true := (StableHlo.Predicate.ofBool_eq_one_iff _).1 h'
  have h0 : (100000#32 : BitVec 32).toInt = 100000 := by decide
  simp only [BitVec.slt, h0, decide_eq_true_eq] at hb
  exact hb

/-! ## Row 0 of the edge list, as a vector -/

/-- Row 0 of a [2, m] array, cut out and cast to a vector, reads at `e` the array at (0, e). -/
theorem row0_apply {α : Type} {m : Nat} (a1 : (⟨2, ![2, m]⟩ : Shape).Idx → α)
    (p1 : (⟨2, ![2, m]⟩ : Shape).Slices ![0, 0] ⟨2, ![1, m]⟩) (p2 : (⟨2, ![1, m]⟩ : Shape).ShapeCasts ⟨1, ![m]⟩) (e : Fin m) :
    shapeCast ⟨1, ![m]⟩ (extractStridedSlice ⟨2, ![1, m]⟩ ![0, 0] a1 p1) p2 (ix1 e) = a1 (ix2 0 e) := by
  refine (shapeCast_1a_a_apply _ p2 e).trans ?_
  exact slice2_axis0_apply 0 a1 p1 (0 : Fin 1) e (0 : Fin 2) rfl

/-! ## The precondition, read back -/

/-- Under the precondition every source index (row 0 of the edge list) lies in [0, 100000). -/
theorem of_pre {F : FTy → Type} [FloatOps F] (a0 : FVec F Cert.Pre_finite_inputs.S100000x128 .f32) (a1 : IVec Cert.Pre_finite_inputs.S2x3200000 32) (a2 : FVec F Cert.Pre_finite_inputs.S128x16 .f32) (a3 : FVec F Cert.Pre_finite_inputs.S16 .f32) (a4 : FVec F Cert.Pre_finite_inputs.S16x32 .f32) (a5 : FVec F Cert.Pre_finite_inputs.S32 .f32)
    (h : Cert.Pre_finite_inputs.fn (F := F) a0 a1 a2 a3 a4 a5 = fun _ => 1#1) :
    ∀ e : Fin 3200000, 0 ≤ (a1 (ix2 0 e)).toInt ∧ (a1 (ix2 0 e)).toInt < 100000 := by
  intro e
  haveI : Subsingleton Cert.Pre_finite_inputs.S_.Idx := ⟨fun a b => funext fun d => d.elim0⟩
  -- the precondition at its one index: a chain of `and`s whose last conjunct is the "all" of the range test
  have h0 := congrFun h ix0
  dsimp only [Cert.Pre_finite_inputs.fn, Cert.Pre_finite_inputs.fn_part1] at h0
  have hall := (IntOp.andi_eq_one.1 h0).2
  -- the "all" is 1, so the two-sided test is 1 at the entry e
  have he := Host.reduce_andi_all _ _ _ _ _ hall (ix1 e)
  obtain ⟨hge, hlt⟩ := IntOp.andi_eq_one.1 he
  -- the tested word at e is the edge list's entry (0, e)
  have hrow := row0_apply a1 Cert.Pre_finite_inputs.Facts.slices_S2x3200000_S1x3200000_0_0
    Cert.Pre_finite_inputs.Facts.shapeCasts_S1x3200000_S3200000 e
  have hge' : IntOp.cmpi .sge (a1 (ix2 0 e)) 0#32 = 1#1 := by rw [← hrow]; exact hge
  have hlt' : IntOp.cmpi .slt (a1 (ix2 0 e)) 100000#32 = 1#1 := by rw [← hrow]; exact hlt
  exact ⟨nonneg_of_sge_zero _ hge', lt_of_slt_top _ hlt'⟩

/-! ## The source list with the self loops appended -/

/-- The source list with the self loops appended (row 0 of the edge list, then 0, 1, …, 99999) lies in [0, 100000) entry by entry. -/
theorem src_range (a1 : IVec (⟨2, ![2, 3200000]⟩ : Shape) 32) (h : ∀ e : Fin 3200000, 0 ≤ (a1 (ix2 0 e)).toInt ∧ (a1 (ix2 0 e)).toInt < 100000)
    (p1 : (⟨2, ![2, 3200000]⟩ : Shape).Slices ![0, 0] ⟨2, ![1, 3200000]⟩) (p2 : (⟨2, ![1, 3200000]⟩ : Shape).ShapeCasts ⟨1, ![3200000]⟩)
    (p3 : Shape.Concatenates [(⟨1, ![3200000]⟩ : Shape), ⟨1, ![100000]⟩] ⟨1, ![3300000]⟩ 0) (j : Fin 3300000) :
    0 ≤ ((concatenate (⟨1, ![3300000]⟩ : Shape) 0 [⟨⟨1, ![3200000]⟩, shapeCast ⟨1, ![3200000]⟩ (extractStridedSlice ⟨2, ![1, 3200000]⟩ ![0, 0] a1 p1) p2⟩, ⟨⟨1, ![100000]⟩, iotaInDim ⟨1, ![100000]⟩ 32 0⟩] p3) (ix1 j)).toInt
    ∧ ((concatenate (⟨1, ![3300000]⟩ : Shape) 0 [⟨⟨1, ![3200000]⟩, shapeCast ⟨1, ![3200000]⟩ (extractStridedSlice ⟨2, ![1, 3200000]⟩ ![0, 0] a1 p1) p2⟩, ⟨⟨1, ![100000]⟩, iotaInDim ⟨1, ![100000]⟩ 32 0⟩] p3) (ix1 j)).toInt < 100000 := by
  by_cases hj : j.val < 3200000
  · -- an entry of the first piece: the edge list's source index at that position
    have key : (concatenate (⟨1, ![3300000]⟩ : Shape) 0 [⟨⟨1, ![3200000]⟩, shapeCast ⟨1, ![3200000]⟩ (extractStridedSlice ⟨2, ![1, 3200000]⟩ ![0, 0] a1 p1) p2⟩, ⟨⟨1, ![100000]⟩, iotaInDim ⟨1, ![100000]⟩ 32 0⟩] p3) (ix1 j)
        = a1 (ix2 0 (⟨j.val, hj⟩ : Fin 3200000)) := by
      refine (concatenate_pair_apply_left (t := ⟨1, ![3300000]⟩) (s₁ := ⟨1, ![3200000]⟩) (s₂ := ⟨1, ![100000]⟩) 0 _ _ p3 (ix1 j) rfl (ix1 (⟨j.val, hj⟩ : Fin 3200000)) ?_).trans ?_
      · intro b
        match b with
        | ⟨0, _⟩ => rfl
      · exact row0_apply a1 p1 p2 _
    rw [key]
    exact h _
  · -- an entry of the second piece: the position past the edges, a number below N
    have hj' : j.val - 3200000 < 100000 := by have := j.isLt; omega
    have key : (concatenate (⟨1, ![3300000]⟩ : Shape) 0 [⟨⟨1, ![3200000]⟩, shapeCast ⟨1, ![3200000]⟩ (extractStridedSlice ⟨2, ![1, 3200000]⟩ ![0, 0] a1 p1) p2⟩, ⟨⟨1, ![100000]⟩, iotaInDim ⟨1, ![100000]⟩ 32 0⟩] p3) (ix1 j)
        = BitVec.ofNat 32 (j.val - 3200000) := by
      refine (concatenate_pair_apply_right (t := ⟨1, ![3300000]⟩) (s₁ := ⟨1, ![3200000]⟩) (s₂ := ⟨1, ![100000]⟩) 0 _ _ p3 (ix1 j) rfl rfl (ix1 (⟨j.val - 3200000, hj'⟩ : Fin 100000)) ?_ ?_).trans ?_
      · intro b hb
        have hb1 : b.val < 1 := b.isLt
        exact absurd (Fin.ext (show b.val = 0 by omega)) hb
      · show j.val - 3200000 + 3200000 = j.val
        omega
      · rfl
    rw [key, StableHlo.Predicate.toInt_ofNat_small _ (by omega)]
    omega

end Cert.SrcRange
-- ==== Proof.LibLayoutBridge.lean ====
/-
  A vector laid out as a column or as a row, two ways. One program RESHAPES a length-`E` vector to the `[E, 1]` column
  (or a length-`n` vector to the `[1, n]` row): entry `(e, 0)` of the column is the entry at the same row-major
  position of the vector, which is `e`. The other BROADCASTS the vector in place along the one axis it names: entry
  `(e, 0)` of the result is the vector's entry at the coordinate on that axis, `e` again (and when the extent is 1
  the broadcast reads coordinate 0, which is then the only coordinate there is). So the two arrays agree entry by entry.
-/
import Idealize.ShloMosaic.PureOps
import Idealize.ShloMosaic.Lib.ValueIdx
import Idealize.ShloMosaic.Lib.ValueLayout
import Idealize.ShloMosaic.Lib.Pipeline.Value

namespace Cert.LayoutBridge

open Idealize.ShloMosaic Idealize.ShloMosaic.ValueIdx

/-- An `[a]` array cast to `[a, 1]` reads, at `(i, u)`, the operand at `i`, whatever the unit coordinate `u`: the
    row-major position of `(i, u)` in `[a, 1]` is `i * 1 + u = i`. -/
theorem shapeCast_a_a1_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A length-E vector reshaped to an [E, 1] column is the vector broadcast along axis 0 of [E, 1]: entry (e, 0) is entry e either way. -/
theorem shapeCast_col_eq_bcast {α : Type} {E : Nat} (x : (⟨1, ![E]⟩ : Shape).Idx → α) (h : (⟨1, ![E]⟩ : Shape).ShapeCasts ⟨2, ![E, 1]⟩) (h' : (⟨1, ![E]⟩ : Shape).BroadcastsInDim ⟨2, ![E, 1]⟩ (![0] : Fin 1 → Fin 2)) :
    shapeCast ⟨2, ![E, 1]⟩ x h = broadcastInDim ⟨2, ![E, 1]⟩ ![0] h' x := by
  funext j
  obtain ⟨e, u, rfl⟩ : ∃ (e : Fin E) (u : Fin 1), j = ix2 e u := ⟨j 0, j 1, eq_ix2 j⟩
  refine (shapeCast_a_a1_apply x h e u).trans ?_
  refine (broadcastInDim_apply ![0] h' x (ix2 e u) (ix1 e) fun a => ?_).symm
  match a with
  | ⟨0, _⟩ =>
    show e.val = if E = 1 then 0 else e.val
    split
    · have := e.isLt; omega
    · rfl

/-- A length-n vector reshaped to a [1, n] row is the vector broadcast along axis 1 of [1, n]. -/
theorem shapeCast_row_eq_bcast {α : Type} {n : Nat} (x : (⟨1, ![n]⟩ : Shape).Idx → α) (h : (⟨1, ![n]⟩ : Shape).ShapeCasts ⟨2, ![1, n]⟩) (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨u, i, rfl⟩ : ∃ (u : Fin 1) (i : Fin n), j = ix2 u i := ⟨j 0, j 1, eq_ix2 j⟩
  refine (shapeCast_a_1a_apply x h u i).trans ?_
  refine (broadcastInDim_apply ![1] h' x (ix2 u i) (ix1 i) fun a => ?_).symm
  match a with
  | ⟨0, _⟩ =>
    show i.val = if n = 1 then 0 else i.val
    split
    · have := i.isLt; omega
    · rfl

end Cert.LayoutBridge
-- ==== Proof.Bridge.lean ====
/-
  The bridge between the two idealized programs, over the extended reals.
  Kernel side: the result buffer after the run is the layered function `Walk.out` of the six argument arrays
  (Proof/WalkValues.lean), with the six regions read as whole-array functions: the two dense layers are the host's
  `dot_general` (a block of rows times the whole weight matrix is that block of the product; a change of float format
  is the identity), the two scalings are the product with the edge weight broadcast along the feature axis, the two
  epilogues add the bias row (and rectify). Reference side: the generated run's composed term. The two differ in
  three places only. (1) The kernel's row gather is the "fill" mode: it selects the gathered row where the wrapped
  index lies in [0, 99999] and a NaN word elsewhere; under the precondition every source index lies in [0, 100000)
  (the self loops are 0 … 99999 by construction), so the mask is all ones and the gather is the reference's. (2) The
  kernel reshapes the edge weights to a column and each bias to a row where the reference broadcasts them in place:
  the same entries. (3) The two programs name their shapes, dimension records and side facts separately: the same
  literals. Everything else — the degree count, the weights, the scatter-adds — is one shared chain of host operations
  applied to equal arguments, and is never opened.
-/
import proofs.«424739_j22832046145825_2_alg».proof.Proof.WalkValues
import proofs.«424739_j22832046145825_2_alg».proof.Proof.Region0
import proofs.«424739_j22832046145825_2_alg».proof.Proof.Region1
import proofs.«424739_j22832046145825_2_alg».proof.Proof.Region2
import proofs.«424739_j22832046145825_2_alg».proof.Proof.Region3
import proofs.«424739_j22832046145825_2_alg».proof.Proof.Region4
import proofs.«424739_j22832046145825_2_alg».proof.Proof.Region5
import proofs.«424739_j22832046145825_2_alg».proof.Proof.TakeFill
import proofs.«424739_j22832046145825_2_alg».proof.Proof.SrcRange
import proofs.«424739_j22832046145825_2_alg».proof.Proof.LibLayoutBridge
import proofs.«424739_j22832046145825_2_alg».proof.Proof.KRun
import proofs.«424739_j22832046145825_2_alg».proof.Proof.RefRun
import proofs.«424739_j22832046145825_2_alg».proof.Proof.Gen.Pre_finite_inputs
import proofs.«424739_j22832046145825_2_alg».proof.Defs

set_option maxRecDepth 16384

noncomputable section

namespace Cert.Bridge

open Idealize.ShloMosaic Idealize.ShloMosaic.TcCoe Idealize.SL.Sem Idealize.ShloMosaic.ValueIdx
open Cert.KernelIdeal

/-- The six regions' whole-array functions, with their proofs. -/
def R : Walk.RegionVals Ideal where
  G0 := Region0.G
  G1 := Region1.G
  G2 := Region2.G
  G3 := Region3.G
  G4 := Region4.G
  G5 := Region5.G
  h0 := fun V c => Region0.val V c
  h1 := fun V c => Region1.val V c
  h2 := fun V c => Region2.val V c
  h3 := fun V c => Region3.val V c
  h4 := fun V c => Region4.val V c
  h5 := fun V c => Region5.val V c

/-- Under the precondition the source list (row 0 of the edge list, then the self loops) lies in [0, 100000). -/
theorem src_in_range (a0 : FVec Ideal S100000x128 .f32) (a1 : IVec S2x3200000 32) (a2 : FVec Ideal S128x16 .f32) (a3 : FVec Ideal S16 .f32) (a4 : FVec Ideal S16x32 .f32) (a5 : FVec Ideal S32 .f32)
    (h : Cert.Pre_finite_inputs.fn (F := Ideal) a0 a1 a2 a3 a4 a5 = fun _ => 1#1) (e : Fin 3300000) :
    0 ≤ ((Walk.src a1) (ix1 e)).toInt ∧ ((Walk.src a1) (ix1 e)).toInt < 100000 :=
  Cert.SrcRange.src_range a1 (Cert.SrcRange.of_pre a0 a1 a2 a3 a4 a5 h) _ _ _ e

/-- With every index in range the fill-mode gather is the plain gather at the wrapped indices (width 16). -/
theorem take16_eq (h : FVec Ideal S100000x16 .f32) (s : IVec S3300000 32)
    (hs : ∀ e : Fin 3300000, 0 ≤ (s (ix1 e)).toInt ∧ (s (ix1 e)).toInt < 100000) :
    Walk.take16 h s = Host.gather gather_S100000x16_S3300000x1_S3300000x16_1_0_n_n_0_1_116 h (Walk.wrap s) := by
  unfold Walk.take16 Walk.inRange
  exact Cert.TakeFill.mask_select (Walk.wrap s) (fun e => Cert.TakeFill.wrap_range s hs _ _ e) _ _ _ _ _ _ _ _

/-- The same at width 32. -/
theorem take32_eq (h : FVec Ideal S100000x32 .f32) (s : IVec S3300000 32)
    (hs : ∀ e : Fin 3300000, 0 ≤ (s (ix1 e)).toInt ∧ (s (ix1 e)).toInt < 100000) :
    Walk.take32 h s = Host.gather gather_S100000x32_S3300000x1_S3300000x32_1_0_n_n_0_1_132 h (Walk.wrap s) := by
  unfold Walk.take32 Walk.inRange
  exact Cert.TakeFill.mask_select (Walk.wrap s) (fun e => Cert.TakeFill.wrap_range s hs _ _ e) _ _ _ _ _ _ _ _

/-- THE TWO RESULTS ARE ONE: under the precondition, from memories agreeing on the six arguments, the reference run's
    composed term is what the kernel program's result buffer holds after its run. -/
theorem ref_eq_kernel (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal m)
    (hag : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))) :
    Cert.ReferenceIdeal.RunP.res_main_v65 (F := Ideal) m' c = Cert.KernelIdeal.Gen.W15 m ρ c (Proc.devRef .tc Cert.KernelIdeal.main_v48) := by
  obtain ⟨e0, e1, e2, e3, e4, e5⟩ := hag
  have hs := src_in_range _ _ _ _ _ _ (hpre c)
  rw [Walk.result m ρ R c]
  unfold Cert.ReferenceIdeal.RunP.res_main_v65
  rw [e0, e1, e2, e3, e4, e5]
  unfold Walk.out Walk.msg2 Walk.hid Walk.msg1
  show _ = Region5.G (Walk.scat32 _ (Region4.G (Walk.take32 (Region3.G (Region2.G (Walk.scat16 _ (Region1.G (Walk.take16 (Region0.G _ _) _) _)) _) _) _) _)) _
  rw [take16_eq _ _ hs, take32_eq _ _ hs]
  unfold Region5.G Region4.G Region3.G Region2.G Region1.G Region0.G Walk.scat32 Walk.scat16
  rw [Cert.LayoutBridge.shapeCast_col_eq_bcast (E := 3300000) (Walk.norm (F := Ideal) _) _ (by decide),
    Cert.LayoutBridge.shapeCast_row_eq_bcast (n := 16) _ _ (by decide),
    Cert.LayoutBridge.shapeCast_row_eq_bcast (n := 32) _ _ (by decide)]
  unfold Walk.norm Walk.normOf Walk.dinv Walk.degPos Walk.degPow Walk.deg Walk.wrap Walk.src Walk.dst
  rfl

/-- The algebraic conjunct: the kernel program's run ends with its result buffer at the last boundary's contents, the
    reference's run with its result at its composed term, and the two are equal (`ref_eq_kernel`); both leave the
    arguments as launched. -/
theorem algebraic : Cert.algebraic_KernelIdeal_ReferenceIdeal := by
  intro m ρ m' ρ' hpre hagree
  refine ⟨fun c => Cert.KernelIdeal.Gen.W15 m ρ c (Proc.devRef .tc Cert.KernelIdeal.main_v48), Cert.KernelIdeal.Run.run_main (F := Ideal) m ρ, ?_⟩
  exact (θ_run Cert.ReferenceIdeal.defs _ _).mono (fun _ h c => ⟨(h c).1.trans (ref_eq_kernel m ρ m' c hpre (hagree c)), (h c).2⟩)
    (Cert.ReferenceIdeal.RunP.run (F := Ideal) m' ρ')

end Cert.Bridge

end
-- ==== Proof.lean ====
/-
  The certificate of a two-layer graph convolution: a Pallas program of six kernels (two dense layers on the matrix
  unit, two edge-weight scalings, a bias-and-rectify and a bias epilogue) with the row gathers and scatter-adds on the
  host, against a plain jnp reference, over the extended reals.

  Statement. The precondition is: every float input finite, and every source index (row 0 of the edge list) in
  [0, 100000). The index range is needed: the kernel gathers rows in "fill" mode, which yields a NaN word at an
  out-of-range index, where the reference's gather clamps; inside the range the two gathers agree.

  The three frames: the two kernel programs' frames are the generated frame certificates (six regions of class A among
  host stretches); the reference has no kernel and its frame is its run with the result dropped. The idealization
  rewrote nothing, so `preserves` is trivial. The algebraic conjunct is Proof/Bridge.lean: the kernel's result buffer,
  read through @main boundary by boundary (Proof/Walk.lean, Proof/WalkValues.lean; each region as one whole-array
  function, Proof/Region0.lean … Region5.lean), equals the reference run's composed term.
-/
import proofs.«424739_j22832046145825_2_alg».proof.Defs
import proofs.«424739_j22832046145825_2_alg».proof.Proof.Gen.Kernel
import proofs.«424739_j22832046145825_2_alg».proof.Proof.Gen.Kernel.Skeleton
import proofs.«424739_j22832046145825_2_alg».proof.Proof.Gen.Kernel.Launch
import proofs.«424739_j22832046145825_2_alg».proof.Proof.Gen.Kernel.Points
import proofs.«424739_j22832046145825_2_alg».proof.Proof.Gen.Kernel.Frame
import proofs.«424739_j22832046145825_2_alg».proof.Proof.Gen.KernelIdeal
import proofs.«424739_j22832046145825_2_alg».proof.Proof.Gen.KernelIdeal.Skeleton
import proofs.«424739_j22832046145825_2_alg».proof.Proof.Gen.KernelIdeal.Launch
import proofs.«424739_j22832046145825_2_alg».proof.Proof.Gen.KernelIdeal.Points
import proofs.«424739_j22832046145825_2_alg».proof.Proof.Gen.KernelIdeal.Frame
import proofs.«424739_j22832046145825_2_alg».proof.Proof.Gen.ReferenceIdeal
import proofs.«424739_j22832046145825_2_alg».proof.Proof.Gen.Pre_finite_inputs
import proofs.«424739_j22832046145825_2_alg».proof.Proof.RefRun
import proofs.«424739_j22832046145825_2_alg».proof.Proof.Bridge
import Idealize.ShloMosaic.Adequacy
import Idealize.ShloMosaic.Init

noncomputable section

namespace Cert.Proof

open Idealize.ShloMosaic Idealize.SL.Sem Cert.Kernel

/-- The word-level kernel program terminates, faults nowhere and leaves its arguments unchanged. -/
theorem frame_Kernel : Cert.frame_Kernel := fun m ρ _ => Cert.Kernel.Gen.frame m ρ
/-- So does its idealization. -/
theorem frame_KernelIdeal : Cert.frame_KernelIdeal := fun m ρ _ => Cert.KernelIdeal.Gen.frame m ρ
/-- The reference is host operations only: its frame is its run, the result dropped. -/
theorem frame_ReferenceIdeal : Cert.frame_ReferenceIdeal := fun m ρ _ =>
  (θ_run Cert.ReferenceIdeal.defs _ _).mono (fun _ h c => (h c).2) (Cert.ReferenceIdeal.RunP.run (F := Ideal) m ρ)

theorem claim : Cert.Claim := ⟨Cert.Kernel.Gen.facts, Cert.KernelIdeal.Gen.facts, Cert.ReferenceIdeal.Gen.facts, Cert.Pre_finite_inputs.Gen.facts,
  frame_Kernel, frame_KernelIdeal, frame_ReferenceIdeal, trivial, Cert.Bridge.algebraic⟩

end Cert.Proof

end
